-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v48)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v48) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v63) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x2 : Shape := ⟨2, ![32768, 2]⟩
abbrev S32768 : Shape := ⟨1, ![32768]⟩
abbrev S_ : Shape := ⟨0, ![]⟩

class Facts : Prop where
  bcast_S_S32768x2 : S_.BroadcastsInDim S32768x2 (![] : Fin 0 → Fin S32768x2.rank)
  reducesTo_S32768x2_S_d0_1 : S32768x2.ReducesTo [0, 1] S_
  h_S_ : 0 < S_.numel
  bcast_S_S32768 : S_.BroadcastsInDim S32768 (![] : Fin 0 → Fin S32768.rank)
  reducesTo_S32768_S_d0 : S32768.ReducesTo [0] S_

variable [Facts]

def fn {F : FTy → Type} [FloatOps F] (main_arg0 : FVec F S32768x2 .f32) (main_arg1 : FVec F S32768 .f32) : IVec S_ 1 :=
  let main_v0 : FVec F S32768x2 .f32 := Host.absf main_arg0
  let main_cst : FVec F S_ .f32 := constant S_ .f32 0x7F800000#32
  let main_v1 : FVec F S32768x2 .f32 := broadcastInDim S32768x2 ![] bcast_S_S32768x2 main_cst
  let main_v2 : IVec S32768x2 1 := cmpf .olt main_v0 main_v1
  let main_c : IVec S_ 1 := constantI S_ 1 1#1
  let main_v3 : IVec S_ 1 := (fun x v => Host.reduce IntOp.andi x v reducesTo_S32768x2_S_d0_1 h_S_) main_v2 main_c
  let main_v4 : FVec F S32768 .f32 := Host.absf main_arg1
  let main_cst_0 : FVec F S_ .f32 := constant S_ .f32 0x7F800000#32
  let main_v5 : FVec F S32768 .f32 := broadcastInDim S32768 ![] bcast_S_S32768 main_cst_0
  let main_v6 : IVec S32768 1 := cmpf .olt main_v4 main_v5
  let main_c_1 : IVec S_ 1 := constantI S_ 1 1#1
  let main_v7 : IVec S_ 1 := (fun x v => Host.reduce IntOp.andi x v reducesTo_S32768_S_d0 h_S_) main_v6 main_c_1
  let main_v8 : IVec S_ 1 := andi main_v3 main_v7
  main_v8
-- ==== Kernel.lean ====
abbrev S32768x2 : Shape := ⟨2, ![32768, 2]⟩
abbrev S32768 : Shape := ⟨1, ![32768]⟩
abbrev S32768x1 : Shape := ⟨2, ![32768, 1]⟩
abbrev S_ : Shape := ⟨0, ![]⟩
abbrev S3600 : Shape := ⟨1, ![3600]⟩
abbrev S1x32768 : Shape := ⟨2, ![1, 32768]⟩
abbrev S3600x1 : Shape := ⟨2, ![3600, 1]⟩
abbrev S3600x32768 : Shape := ⟨2, ![3600, 32768]⟩
abbrev S80x1 : Shape := ⟨2, ![80, 1]⟩
abbrev S80x32768 : Shape := ⟨2, ![80, 32768]⟩

abbrev nBuf : Space → Nat
  | .hbm => 106
  | .vmem => 14
  | .smem => 0
  | _ => 0

abbrev bufTy : (tb : Table) → Fin (tcTables nBuf tb) → BufTy
  | .hbm, ⟨0, _⟩ => ⟨S32768x2, .f32⟩
  | .hbm, ⟨1, _⟩ => ⟨S32768, .f32⟩
  | .hbm, ⟨2, _⟩ => ⟨S32768x1, .f32⟩
  | .hbm, ⟨3, _⟩ => ⟨S32768, .f32⟩
  | .hbm, ⟨4, _⟩ => ⟨S32768x1, .f32⟩
  | .hbm, ⟨5, _⟩ => ⟨S32768, .f32⟩
  | .hbm, ⟨6, _⟩ => ⟨S32768, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S32768, .f32⟩
  | .hbm, ⟨11, _⟩ => ⟨S32768, .f32⟩
  | .hbm, ⟨12, _⟩ => ⟨S_, .f32⟩
  | .hbm, ⟨13, _⟩ => ⟨S32768, .f32⟩
  | .hbm, ⟨14, _⟩ => ⟨S32768, .f32⟩
  | .hbm, ⟨15, _⟩ => ⟨S32768, .i32⟩
  | .hbm, ⟨16, _⟩ => ⟨S32768, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S32768, .f32⟩
  | .hbm, ⟨21, _⟩ => ⟨S32768, .f32⟩
  | .hbm, ⟨22, _⟩ => ⟨S_, .f32⟩
  | .hbm, ⟨23, _⟩ => ⟨S32768, .f32⟩
  | .hbm, ⟨24, _⟩ => ⟨S32768, .f32⟩
  | .hbm, ⟨25, _⟩ => ⟨S32768, .i32⟩
  | .hbm, ⟨26, _⟩ => ⟨S32768, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S32768, .f32⟩
  | .hbm, ⟨31, _⟩ => ⟨S32768, .f32⟩
  | .hbm, ⟨32, _⟩ => ⟨S_, .f32⟩
  | .hbm, ⟨33, _⟩ => ⟨S32768, .f32⟩
  | .hbm, ⟨34, _⟩ => ⟨S32768, .f32⟩
  | .hbm, ⟨35, _⟩ => ⟨S32768, .i32⟩
  | .hbm, ⟨36, _⟩ => ⟨S32768, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S32768, .f32⟩
  | .hbm, ⟨41, _⟩ => ⟨S32768, .f32⟩
  | .hbm, ⟨42, _⟩ => ⟨S_, .f32⟩
  | .hbm, ⟨43, _⟩ => ⟨S32768, .f32⟩
  | .hbm, ⟨44, _⟩ => ⟨S32768, .f32⟩
  | .hbm, ⟨45, _⟩ => ⟨S32768, .i32⟩
  | .hbm, ⟨46, _⟩ => ⟨S3600, .i32⟩
  | .hbm, ⟨47, _⟩ => ⟨S_, .i32⟩
  | .hbm, ⟨48, _⟩ => ⟨S_, .i32⟩
  | .hbm, ⟨49, _⟩ => ⟨S3600, .i32⟩
  | .hbm, ⟨50, _⟩ => ⟨S3600, .i32⟩
  | .hbm, ⟨51, _⟩ => ⟨S3600, .i32⟩
  | .hbm, ⟨52, _⟩ => ⟨S_, .i32⟩
  | .hbm, ⟨53, _⟩ => ⟨S3600, .i32⟩
  | .hbm, ⟨54, _⟩ => ⟨S3600, .i1⟩
  | .hbm, ⟨55, _⟩ => ⟨S3600, .i32⟩
  | .hbm, ⟨56, _⟩ => ⟨S3600, .i32⟩
  | .hbm, ⟨57, _⟩ => ⟨S_, .i32⟩
  | .hbm, ⟨58, _⟩ => ⟨S3600, .i32⟩
  | .hbm, ⟨59, _⟩ => ⟨S3600, .i1⟩
  | .hbm, ⟨60, _⟩ => ⟨S3600, .i1⟩
  | .hbm, ⟨61, _⟩ => ⟨S_, .i32⟩
  | .hbm, ⟨62, _⟩ => ⟨S3600, .i32⟩
  | .hbm, ⟨63, _⟩ => ⟨S3600, .i32⟩
  | .hbm, ⟨64, _⟩ => ⟨S3600, .i32⟩
  | .hbm, ⟨65, _⟩ => ⟨S_, .i32⟩
  | .hbm, ⟨66, _⟩ => ⟨S3600, .i32⟩
  | .hbm, ⟨67, _⟩ => ⟨S3600, .i32⟩
  | .hbm, ⟨68, _⟩ => ⟨S3600, .i32⟩
  | .hbm, ⟨69, _⟩ => ⟨S_, .i32⟩
  | .hbm, ⟨70, _⟩ => ⟨S3600, .i32⟩
  | .hbm, ⟨71, _⟩ => ⟨S3600, .i32⟩
  | .hbm, ⟨72, _⟩ => ⟨S_, .i32⟩
  | .hbm, ⟨73, _⟩ => ⟨S3600, .i32⟩
  | .hbm, ⟨74, _⟩ => ⟨S3600, .i32⟩
  | .hbm, ⟨75, _⟩ => ⟨S_, .i32⟩
  | .hbm, ⟨76, _⟩ => ⟨S3600, .i32⟩
  | .hbm, ⟨77, _⟩ => ⟨S3600, .i32⟩
  | .hbm, ⟨78, _⟩ => ⟨S_, .i32⟩
  | .hbm, ⟨79, _⟩ => ⟨S3600, .i32⟩
  | .hbm, ⟨80, _⟩ => ⟨S3600, .i32⟩
  | .hbm, ⟨81, _⟩ => ⟨S_, .i32⟩
  | .hbm, ⟨82, _⟩ => ⟨S3600, .i32⟩
  | .hbm, ⟨83, _⟩ => ⟨S3600, .i32⟩
  | .hbm, ⟨84, _⟩ => ⟨S_, .i32⟩
  | .hbm, ⟨85, _⟩ => ⟨S3600, .i32⟩
  | .hbm, ⟨86, _⟩ => ⟨S3600, .i32⟩
  | .hbm, ⟨87, _⟩ => ⟨S_, .i32⟩
  | .hbm, ⟨88, _⟩ => ⟨S3600, .i32⟩
  | .hbm, ⟨89, _⟩ => ⟨S3600, .i32⟩
  | .hbm, ⟨90, _⟩ => ⟨S_, .i32⟩
  | .hbm, ⟨91, _⟩ => ⟨S3600, .i32⟩
  | .hbm, ⟨92, _⟩ => ⟨S3600, .i32⟩
  | .hbm, ⟨93, _⟩ => ⟨S1x32768, .i32⟩
  | .hbm, ⟨94, _⟩ => ⟨S1x32768, .i32⟩
  | .hbm, ⟨95, _⟩ => ⟨S1x32768, .i32⟩
  | .hbm, ⟨96, _⟩ => ⟨S1x32768, .i32⟩
  | .hbm, ⟨97, _⟩ => ⟨S3600x1, .i32⟩
  | .hbm, ⟨98, _⟩ => ⟨S3600x1, .i32⟩
  | .hbm, ⟨99, _⟩ => ⟨S3600x1, .i32⟩
  | .hbm, ⟨100, _⟩ => ⟨S3600x1, .i32⟩
  | .hbm, ⟨101, _⟩ => ⟨S3600x32768, .i32⟩
  | .hbm, ⟨102, _⟩ => ⟨S_, .i32⟩
  | .hbm, ⟨103, _⟩ => ⟨S3600x32768, .i32⟩
  | .hbm, ⟨104, _⟩ => ⟨S3600x32768, .i1⟩
  | .hbm, ⟨105, _⟩ => ⟨S3600x32768, .i1⟩
  | .local _ .vmem, ⟨0, _⟩ => ⟨S1x32768, .i32⟩
  | .local _ .vmem, ⟨1, _⟩ => ⟨S1x32768, .i32⟩
  | .local _ .vmem, ⟨2, _⟩ => ⟨S1x32768, .i32⟩
  | .local _ .vmem, ⟨3, _⟩ => ⟨S1x32768, .i32⟩
  | .local _ .vmem, ⟨4, _⟩ => ⟨S80x1, .i32⟩
  | .local _ .vmem, ⟨5, _⟩ => ⟨S80x1, .i32⟩
  | .local _ .vmem, ⟨6, _⟩ => ⟨S80x1, .i32⟩
  | .local _ .vmem, ⟨7, _⟩ => ⟨S80x1, .i32⟩
  | .local _ .vmem, ⟨8, _⟩ => ⟨S80x1, .i32⟩
  | .local _ .vmem, ⟨9, _⟩ => ⟨S80x1, .i32⟩
  | .local _ .vmem, ⟨10, _⟩ => ⟨S80x1, .i32⟩
  | .local _ .vmem, ⟨11, _⟩ => ⟨S80x1, .i32⟩
  | .local _ .vmem, ⟨12, _⟩ => ⟨S80x32768, .i32⟩
  | .local _ .vmem, ⟨13, _⟩ => ⟨S80x32768, .i32⟩
  | _, _ => ⟨S32768x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_cst_0 : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_cst_2 : Ref sig .tc := ⟨.hbm, 18, rfl⟩
abbrev main_call1_v0 : Ref sig .tc := ⟨.hbm, 19, rfl⟩
abbrev main_call1_v1 : Ref sig .tc := ⟨.hbm, 20, rfl⟩
abbrev main_call1_v2 : Ref sig .tc := ⟨.hbm, 21, rfl⟩
abbrev main_call1_v3 : Ref sig .tc := ⟨.hbm, 22, rfl⟩
abbrev main_call1_v4 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst_3 : Ref sig .tc := ⟨.hbm, 27, rfl⟩
abbrev main_cst_4 : Ref sig .tc := ⟨.hbm, 28, rfl⟩
abbrev main_call2_v0 : Ref sig .tc := ⟨.hbm, 29, rfl⟩
abbrev main_call2_v1 : Ref sig .tc := ⟨.hbm, 30, rfl⟩
abbrev main_call2_v2 : Ref sig .tc := ⟨.hbm, 31, rfl⟩
abbrev main_call2_v3 : Ref sig .tc := ⟨.hbm, 32, rfl⟩
abbrev main_call2_v4 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_cst_5 : Ref sig .tc := ⟨.hbm, 37, rfl⟩
abbrev main_cst_6 : Ref sig .tc := ⟨.hbm, 38, rfl⟩
abbrev main_call3_v0 : Ref sig .tc := ⟨.hbm, 39, rfl⟩
abbrev main_call3_v1 : Ref sig .tc := ⟨.hbm, 40, rfl⟩
abbrev main_call3_v2 : Ref sig .tc := ⟨.hbm, 41, rfl⟩
abbrev main_call3_v3 : Ref sig .tc := ⟨.hbm, 42, rfl⟩
abbrev main_call3_v4 : Ref sig .tc := ⟨.hbm, 43, rfl⟩
abbrev main_v14 : Ref sig .tc := ⟨.hbm, 44, rfl⟩
abbrev main_v15 : Ref sig .tc := ⟨.hbm, 45, rfl⟩
abbrev main_v16 : Ref sig .tc := ⟨.hbm, 46, rfl⟩
abbrev main_c : Ref sig .tc := ⟨.hbm, 47, rfl⟩
abbrev main_call4_v0 : Ref sig .tc := ⟨.hbm, 48, rfl⟩
abbrev main_call4_v1 : Ref sig .tc := ⟨.hbm, 49, rfl⟩
abbrev main_call4_v2 : Ref sig .tc := ⟨.hbm, 50, rfl⟩
abbrev main_call4_v3 : Ref sig .tc := ⟨.hbm, 51, rfl⟩
abbrev main_call4_v4 : Ref sig .tc := ⟨.hbm, 52, rfl⟩
abbrev main_call4_v5 : Ref sig .tc := ⟨.hbm, 53, rfl⟩
abbrev main_call4_v6 : Ref sig .tc := ⟨.hbm, 54, rfl⟩
abbrev main_call4_v7 : Ref sig .tc := ⟨.hbm, 55, rfl⟩
abbrev main_call4_v8 : Ref sig .tc := ⟨.hbm, 56, rfl⟩
abbrev main_call4_c : Ref sig .tc := ⟨.hbm, 57, rfl⟩
abbrev main_call4_v9 : Ref sig .tc := ⟨.hbm, 58, rfl⟩
abbrev main_call4_v10 : Ref sig .tc := ⟨.hbm, 59, rfl⟩
abbrev main_call4_v11 : Ref sig .tc := ⟨.hbm, 60, rfl⟩
abbrev main_call4_c_0 : Ref sig .tc := ⟨.hbm, 61, rfl⟩
abbrev main_call4_v12 : Ref sig .tc := ⟨.hbm, 62, rfl⟩
abbrev main_call4_v13 : Ref sig .tc := ⟨.hbm, 63, rfl⟩
abbrev main_v17 : Ref sig .tc := ⟨.hbm, 64, rfl⟩
abbrev main_c_7 : Ref sig .tc := ⟨.hbm, 65, rfl⟩
abbrev main_v18 : Ref sig .tc := ⟨.hbm, 66, rfl⟩
abbrev main_v19 : Ref sig .tc := ⟨.hbm, 67, rfl⟩
abbrev main_v20 : Ref sig .tc := ⟨.hbm, 68, rfl⟩
abbrev main_c_8 : Ref sig .tc := ⟨.hbm, 69, rfl⟩
abbrev main_v21 : Ref sig .tc := ⟨.hbm, 70, rfl⟩
abbrev main_v22 : Ref sig .tc := ⟨.hbm, 71, rfl⟩
abbrev main_c_9 : Ref sig .tc := ⟨.hbm, 72, rfl⟩
abbrev main_v23 : Ref sig .tc := ⟨.hbm, 73, rfl⟩
abbrev main_v24 : Ref sig .tc := ⟨.hbm, 74, rfl⟩
abbrev main_c_10 : Ref sig .tc := ⟨.hbm, 75, rfl⟩
abbrev main_v25 : Ref sig .tc := ⟨.hbm, 76, rfl⟩
abbrev main_v26 : Ref sig .tc := ⟨.hbm, 77, rfl⟩
abbrev main_c_11 : Ref sig .tc := ⟨.hbm, 78, rfl⟩
abbrev main_v27 : Ref sig .tc := ⟨.hbm, 79, rfl⟩
abbrev main_v28 : Ref sig .tc := ⟨.hbm, 80, rfl⟩
abbrev main_c_12 : Ref sig .tc := ⟨.hbm, 81, rfl⟩
abbrev main_v29 : Ref sig .tc := ⟨.hbm, 82, rfl⟩
abbrev main_v30 : Ref sig .tc := ⟨.hbm, 83, rfl⟩
abbrev main_c_13 : Ref sig .tc := ⟨.hbm, 84, rfl⟩
abbrev main_v31 : Ref sig .tc := ⟨.hbm, 85, rfl⟩
abbrev main_v32 : Ref sig .tc := ⟨.hbm, 86, rfl⟩
abbrev main_c_14 : Ref sig .tc := ⟨.hbm, 87, rfl⟩
abbrev main_v33 : Ref sig .tc := ⟨.hbm, 88, rfl⟩
abbrev main_v34 : Ref sig .tc := ⟨.hbm, 89, rfl⟩
abbrev main_c_15 : Ref sig .tc := ⟨.hbm, 90, rfl⟩
abbrev main_v35 : Ref sig .tc := ⟨.hbm, 91, rfl⟩
abbrev main_v36 : Ref sig .tc := ⟨.hbm, 92, rfl⟩
abbrev main_v37 : Ref sig .tc := ⟨.hbm, 93, rfl⟩
abbrev main_v38 : Ref sig .tc := ⟨.hbm, 94, rfl⟩
abbrev main_v39 : Ref sig .tc := ⟨.hbm, 95, rfl⟩
abbrev main_v40 : Ref sig .tc := ⟨.hbm, 96, rfl⟩
abbrev main_v41 : Ref sig .tc := ⟨.hbm, 97, rfl⟩
abbrev main_v42 : Ref sig .tc := ⟨.hbm, 98, rfl⟩
abbrev main_v43 : Ref sig .tc := ⟨.hbm, 99, rfl⟩
abbrev main_v44 : Ref sig .tc := ⟨.hbm, 100, rfl⟩
abbrev main_v45 : Ref sig .tc := ⟨.hbm, 101, rfl⟩
abbrev main_c_16 : Ref sig .tc := ⟨.hbm, 102, rfl⟩
abbrev main_v46 : Ref sig .tc := ⟨.hbm, 103, rfl⟩
abbrev main_v47 : Ref sig .tc := ⟨.hbm, 104, rfl⟩
abbrev main_v48 : Ref sig .tc := ⟨.hbm, 105, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem4_1 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![45], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x32768 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x32768 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x32768 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x32768 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S80x1 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S80x1 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S80x1 .i32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S80x1 .i32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S80x32768 .i32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  slices_S32768x2_S32768x1_0_0 : S32768x2.Slices ![0, 0] S32768x1
  shapeCasts_S32768x1_S32768 : S32768x1.ShapeCasts S32768
  slices_S32768x2_S32768x1_0_1 : S32768x2.Slices ![0, 1] S32768x1
  bcast_S_S32768 : S_.BroadcastsInDim S32768 (![] : Fin 0 → Fin S32768.rank)
  bcast_S_S3600 : S_.BroadcastsInDim S3600 (![] : Fin 0 → Fin S3600.rank)
  shapeCasts_S32768_S1x32768 : S32768.ShapeCasts S1x32768
  shapeCasts_S3600_S3600x1 : S3600.ShapeCasts S3600x1
  inb_S1x32768_S1x32768_0_0 : ∀ a, (![0, 0] : Fin 2 → Nat) a + S1x32768.size a ≤ S1x32768.size a
  h_S1x32768 : 0 < S1x32768.numel
  shapeCasts_S1x32768_S1x32768 : S1x32768.ShapeCasts S1x32768
  inb_S80x1_S80x1_0_0 : ∀ a, (![0, 0] : Fin 2 → Nat) a + S80x1.size a ≤ S80x1.size a
  h_S80x1 : 0 < S80x1.numel
  shapeCasts_S80x1_S80x1 : S80x1.ShapeCasts S80x1
  broadcasts_S1x32768_S80x32768 : S1x32768.Broadcasts S80x32768
  broadcasts_S80x1_S80x32768 : S80x1.Broadcasts S80x32768
  inb_S80x32768_S80x32768_0_0 : ∀ a, (![0, 0] : Fin 2 → Nat) a + S80x32768.size a ≤ S80x32768.size a
  h_S80x32768 : 0 < S80x32768.numel
  natLt_1_32 : 1 < 32
  bcast_S_S3600x32768 : S_.BroadcastsInDim S3600x32768 (![] : Fin 0 → Fin S3600x32768.rank)
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1x32768.size a ≤ S1x32768.size a
  hwx0_0 : ∀ i : grid0.Coords, EltTy.bits .i32 = 32 ∨ (Rect.block (s := S1x32768) S1x32768.size (cc0_transform_0 i) (hinb0_0 i)).WholeWords (EltTy.packing .i32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x32768.size a ≤ S1x32768.size a
  hwx0_1 : ∀ i : grid0.Coords, EltTy.bits .i32 = 32 ∨ (Rect.block (s := S1x32768) S1x32768.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x32768.size a ≤ S1x32768.size a
  hwx0_2 : ∀ i : grid0.Coords, EltTy.bits .i32 = 32 ∨ (Rect.block (s := S1x32768) S1x32768.size (cc0_transform_2 i) (hinb0_2 i)).WholeWords (EltTy.packing .i32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x32768.size a ≤ S1x32768.size a
  hwx0_3 : ∀ i : grid0.Coords, EltTy.bits .i32 = 32 ∨ (Rect.block (s := S1x32768) S1x32768.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S80x1.size a ≤ S3600x1.size a
  hwx0_4 : ∀ i : grid0.Coords, EltTy.bits .i32 = 32 ∨ (Rect.block (s := S3600x1) S80x1.size (cc0_transform_4 i) (hinb0_4 i)).WholeWords (EltTy.packing .i32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S80x1.size a ≤ S3600x1.size a
  hwx0_5 : ∀ i : grid0.Coords, EltTy.bits .i32 = 32 ∨ (Rect.block (s := S3600x1) S80x1.size (cc0_transform_5 i) (hinb0_5 i)).WholeWords (EltTy.packing .i32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S80x1.size a ≤ S3600x1.size a
  hwx0_6 : ∀ i : grid0.Coords, EltTy.bits .i32 = 32 ∨ (Rect.block (s := S3600x1) S80x1.size (cc0_transform_6 i) (hinb0_6 i)).WholeWords (EltTy.packing .i32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S80x1.size a ≤ S3600x1.size a
  hwx0_7 : ∀ i : grid0.Coords, EltTy.bits .i32 = 32 ∨ (Rect.block (s := S3600x1) S80x1.size (cc0_transform_7 i) (hinb0_7 i)).WholeWords (EltTy.packing .i32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S80x32768.size a ≤ S3600x32768.size a
  hwx0_8 : ∀ i : grid0.Coords, EltTy.bits .i32 = 32 ∨ (Rect.block (s := S3600x32768) S80x32768.size (cc0_transform_8 i) (hinb0_8 i)).WholeWords (EltTy.packing .i32)

variable [Facts₀]

abbrev win0_0 : Pipeline.Window sig grid0 :=
  Pipeline.Window.ofSpec (Memref.whole main_v37) S1x32768.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v38) S1x32768.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v39) S1x32768.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v40) S1x32768.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v41) S80x1.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v42) S80x1.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v43) S80x1.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v44) S80x1.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_v45) S80x32768.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S32768x2 : Shape := ⟨2, ![32768, 2]⟩
abbrev S32768 : Shape := ⟨1, ![32768]⟩
abbrev S32768x1 : Shape := ⟨2, ![32768, 1]⟩
abbrev S_ : Shape := ⟨0, ![]⟩
abbrev S3600 : Shape := ⟨1, ![3600]⟩
abbrev S1x32768 : Shape := ⟨2, ![1, 32768]⟩
abbrev S3600x1 : Shape := ⟨2, ![3600, 1]⟩
abbrev S3600x32768 : Shape := ⟨2, ![3600, 32768]⟩

abbrev nBuf : Space → Nat
  | .hbm => 120
  | .vmem => 0
  | .smem => 0
  | _ => 0

abbrev bufTy : (tb : Table) → Fin (tcTables nBuf tb) → BufTy
  | .hbm, ⟨0, _⟩ => ⟨S32768x2, .f32⟩
  | .hbm, ⟨1, _⟩ => ⟨S32768, .f32⟩
  | .hbm, ⟨2, _⟩ => ⟨S32768x1, .f32⟩
  | .hbm, ⟨3, _⟩ => ⟨S32768, .f32⟩
  | .hbm, ⟨4, _⟩ => ⟨S32768, .f32⟩
  | .hbm, ⟨5, _⟩ => ⟨S_, .i32⟩
  | .hbm, ⟨6, _⟩ => ⟨S_, .i32⟩
  | .hbm, ⟨7, _⟩ => ⟨S_, .f32⟩
  | .hbm, ⟨8, _⟩ => ⟨S32768, .f32⟩
  | .hbm, ⟨9, _⟩ => ⟨S32768, .f32⟩
  | .hbm, ⟨10, _⟩ => ⟨S_, .f32⟩
  | .hbm, ⟨11, _⟩ => ⟨S32768, .f32⟩
  | .hbm, ⟨12, _⟩ => ⟨S32768, .f32⟩
  | .hbm, ⟨13, _⟩ => ⟨S32768, .i32⟩
  | .hbm, ⟨14, _⟩ => ⟨S32768x1, .f32⟩
  | .hbm, ⟨15, _⟩ => ⟨S32768, .f32⟩
  | .hbm, ⟨16, _⟩ => ⟨S32768, .f32⟩
  | .hbm, ⟨17, _⟩ => ⟨S_, .i32⟩
  | .hbm, ⟨18, _⟩ => ⟨S_, .i32⟩
  | .hbm, ⟨19, _⟩ => ⟨S_, .f32⟩
  | .hbm, ⟨20, _⟩ => ⟨S32768, .f32⟩
  | .hbm, ⟨21, _⟩ => ⟨S32768, .f32⟩
  | .hbm, ⟨22, _⟩ => ⟨S_, .f32⟩
  | .hbm, ⟨23, _⟩ => ⟨S32768, .f32⟩
  | .hbm, ⟨24, _⟩ => ⟨S32768, .f32⟩
  | .hbm, ⟨25, _⟩ => ⟨S32768, .i32⟩
  | .hbm, ⟨26, _⟩ => ⟨S32768x1, .f32⟩
  | .hbm, ⟨27, _⟩ => ⟨S32768, .f32⟩
  | .hbm, ⟨28, _⟩ => ⟨S32768, .f32⟩
  | .hbm, ⟨29, _⟩ => ⟨S_, .i32⟩
  | .hbm, ⟨30, _⟩ => ⟨S_, .i32⟩
  | .hbm, ⟨31, _⟩ => ⟨S_, .f32⟩
  | .hbm, ⟨32, _⟩ => ⟨S32768, .f32⟩
  | .hbm, ⟨33, _⟩ => ⟨S32768, .f32⟩
  | .hbm, ⟨34, _⟩ => ⟨S_, .f32⟩
  | .hbm, ⟨35, _⟩ => ⟨S32768, .f32⟩
  | .hbm, ⟨36, _⟩ => ⟨S32768, .f32⟩
  | .hbm, ⟨37, _⟩ => ⟨S32768, .i32⟩
  | .hbm, ⟨38, _⟩ => ⟨S32768x1, .f32⟩
  | .hbm, ⟨39, _⟩ => ⟨S32768, .f32⟩
  | .hbm, ⟨40, _⟩ => ⟨S32768, .f32⟩
  | .hbm, ⟨41, _⟩ => ⟨S_, .i32⟩
  | .hbm, ⟨42, _⟩ => ⟨S_, .i32⟩
  | .hbm, ⟨43, _⟩ => ⟨S_, .f32⟩
  | .hbm, ⟨44, _⟩ => ⟨S32768, .f32⟩
  | .hbm, ⟨45, _⟩ => ⟨S32768, .f32⟩
  | .hbm, ⟨46, _⟩ => ⟨S_, .f32⟩
  | .hbm, ⟨47, _⟩ => ⟨S32768, .f32⟩
  | .hbm, ⟨48, _⟩ => ⟨S32768, .f32⟩
  | .hbm, ⟨49, _⟩ => ⟨S32768, .i32⟩
  | .hbm, ⟨50, _⟩ => ⟨S3600, .i32⟩
  | .hbm, ⟨51, _⟩ => ⟨S_, .i32⟩
  | .hbm, ⟨52, _⟩ => ⟨S_, .i32⟩
  | .hbm, ⟨53, _⟩ => ⟨S3600, .i32⟩
  | .hbm, ⟨54, _⟩ => ⟨S3600, .i32⟩
  | .hbm, ⟨55, _⟩ => ⟨S3600, .i32⟩
  | .hbm, ⟨56, _⟩ => ⟨S_, .i32⟩
  | .hbm, ⟨57, _⟩ => ⟨S3600, .i32⟩
  | .hbm, ⟨58, _⟩ => ⟨S3600, .i1⟩
  | .hbm, ⟨59, _⟩ => ⟨S3600, .i32⟩
  | .hbm, ⟨60, _⟩ => ⟨S3600, .i32⟩
  | .hbm, ⟨61, _⟩ => ⟨S_, .i32⟩
  | .hbm, ⟨62, _⟩ => ⟨S3600, .i32⟩
  | .hbm, ⟨63, _⟩ => ⟨S3600, .i1⟩
  | .hbm, ⟨64, _⟩ => ⟨S3600, .i1⟩
  | .hbm, ⟨65, _⟩ => ⟨S_, .i32⟩
  | .hbm, ⟨66, _⟩ => ⟨S3600, .i32⟩
  | .hbm, ⟨67, _⟩ => ⟨S3600, .i32⟩
  | .hbm, ⟨68, _⟩ => ⟨S3600, .i32⟩
  | .hbm, ⟨69, _⟩ => ⟨S_, .i32⟩
  | .hbm, ⟨70, _⟩ => ⟨S3600, .i32⟩
  | .hbm, ⟨71, _⟩ => ⟨S3600, .i32⟩
  | .hbm, ⟨72, _⟩ => ⟨S3600, .i32⟩
  | .hbm, ⟨73, _⟩ => ⟨S_, .i32⟩
  | .hbm, ⟨74, _⟩ => ⟨S3600, .i32⟩
  | .hbm, ⟨75, _⟩ => ⟨S3600, .i32⟩
  | .hbm, ⟨76, _⟩ => ⟨S_, .i32⟩
  | .hbm, ⟨77, _⟩ => ⟨S3600, .i32⟩
  | .hbm, ⟨78, _⟩ => ⟨S3600, .i32⟩
  | .hbm, ⟨79, _⟩ => ⟨S_, .i32⟩
  | .hbm, ⟨80, _⟩ => ⟨S3600, .i32⟩
  | .hbm, ⟨81, _⟩ => ⟨S3600, .i32⟩
  | .hbm, ⟨82, _⟩ => ⟨S_, .i32⟩
  | .hbm, ⟨83, _⟩ => ⟨S3600, .i32⟩
  | .hbm, ⟨84, _⟩ => ⟨S3600, .i32⟩
  | .hbm, ⟨85, _⟩ => ⟨S_, .i32⟩
  | .hbm, ⟨86, _⟩ => ⟨S3600, .i32⟩
  | .hbm, ⟨87, _⟩ => ⟨S3600, .i32⟩
  | .hbm, ⟨88, _⟩ => ⟨S_, .i32⟩
  | .hbm, ⟨89, _⟩ => ⟨S3600, .i32⟩
  | .hbm, ⟨90, _⟩ => ⟨S3600, .i32⟩
  | .hbm, ⟨91, _⟩ => ⟨S_, .i32⟩
  | .hbm, ⟨92, _⟩ => ⟨S3600, .i32⟩
  | .hbm, ⟨93, _⟩ => ⟨S3600, .i32⟩
  | .hbm, ⟨94, _⟩ => ⟨S_, .i32⟩
  | .hbm, ⟨95, _⟩ => ⟨S3600, .i32⟩
  | .hbm, ⟨96, _⟩ => ⟨S3600, .i32⟩
  | .hbm, ⟨97, _⟩ => ⟨S1x32768, .i32⟩
  | .hbm, ⟨98, _⟩ => ⟨S3600x1, .i32⟩
  | .hbm, ⟨99, _⟩ => ⟨S3600x32768, .i32⟩
  | .hbm, ⟨100, _⟩ => ⟨S3600x32768, .i32⟩
  | .hbm, ⟨101, _⟩ => ⟨S3600x32768, .i32⟩
  | .hbm, ⟨102, _⟩ => ⟨S1x32768, .i32⟩
  | .hbm, ⟨103, _⟩ => ⟨S3600x1, .i32⟩
  | .hbm, ⟨104, _⟩ => ⟨S3600x32768, .i32⟩
  | .hbm, ⟨105, _⟩ => ⟨S3600x32768, .i32⟩
  | .hbm, ⟨106, _⟩ => ⟨S3600x32768, .i32⟩
  | .hbm, ⟨107, _⟩ => ⟨S1x32768, .i32⟩
  | .hbm, ⟨108, _⟩ => ⟨S3600x1, .i32⟩
  | .hbm, ⟨109, _⟩ => ⟨S3600x32768, .i32⟩
  | .hbm, ⟨110, _⟩ => ⟨S3600x32768, .i32⟩
  | .hbm, ⟨111, _⟩ => ⟨S3600x32768, .i32⟩
  | .hbm, ⟨112, _⟩ => ⟨S1x32768, .i32⟩
  | .hbm, ⟨113, _⟩ => ⟨S3600x1, .i32⟩
  | .hbm, ⟨114, _⟩ => ⟨S3600x32768, .i32⟩
  | .hbm, ⟨115, _⟩ => ⟨S3600x32768, .i32⟩
  | .hbm, ⟨116, _⟩ => ⟨S3600x32768, .i32⟩
  | .hbm, ⟨117, _⟩ => ⟨S3600x32768, .i1⟩
  | .hbm, ⟨118, _⟩ => ⟨S3600x32768, .i1⟩
  | .hbm, ⟨119, _⟩ => ⟨S3600x32768, .i1⟩
  | _, _ => ⟨S32768x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_c : Ref sig .tc := ⟨.hbm, 5, rfl⟩
abbrev main_c_0 : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_c_1 : Ref sig .tc := ⟨.hbm, 17, rfl⟩
abbrev main_c_2 : Ref sig .tc := ⟨.hbm, 18, rfl⟩
abbrev main_call1_v0 : Ref sig .tc := ⟨.hbm, 19, rfl⟩
abbrev main_call1_v1 : Ref sig .tc := ⟨.hbm, 20, rfl⟩
abbrev main_call1_v2 : Ref sig .tc := ⟨.hbm, 21, rfl⟩
abbrev main_call1_v3 : Ref sig .tc := ⟨.hbm, 22, rfl⟩
abbrev main_call1_v4 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_c_3 : Ref sig .tc := ⟨.hbm, 29, rfl⟩
abbrev main_c_4 : Ref sig .tc := ⟨.hbm, 30, rfl⟩
abbrev main_call2_v0 : Ref sig .tc := ⟨.hbm, 31, rfl⟩
abbrev main_call2_v1 : Ref sig .tc := ⟨.hbm, 32, rfl⟩
abbrev main_call2_v2 : Ref sig .tc := ⟨.hbm, 33, rfl⟩
abbrev main_call2_v3 : Ref sig .tc := ⟨.hbm, 34, rfl⟩
abbrev main_call2_v4 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_c_5 : Ref sig .tc := ⟨.hbm, 41, rfl⟩
abbrev main_c_6 : Ref sig .tc := ⟨.hbm, 42, rfl⟩
abbrev main_call3_v0 : Ref sig .tc := ⟨.hbm, 43, rfl⟩
abbrev main_call3_v1 : Ref sig .tc := ⟨.hbm, 44, rfl⟩
abbrev main_call3_v2 : Ref sig .tc := ⟨.hbm, 45, rfl⟩
abbrev main_call3_v3 : Ref sig .tc := ⟨.hbm, 46, rfl⟩
abbrev main_call3_v4 : Ref sig .tc := ⟨.hbm, 47, rfl⟩
abbrev main_v18 : Ref sig .tc := ⟨.hbm, 48, rfl⟩
abbrev main_v19 : Ref sig .tc := ⟨.hbm, 49, rfl⟩
abbrev main_v20 : Ref sig .tc := ⟨.hbm, 50, rfl⟩
abbrev main_c_7 : Ref sig .tc := ⟨.hbm, 51, rfl⟩
abbrev main_call4_v0 : Ref sig .tc := ⟨.hbm, 52, rfl⟩
abbrev main_call4_v1 : Ref sig .tc := ⟨.hbm, 53, rfl⟩
abbrev main_call4_v2 : Ref sig .tc := ⟨.hbm, 54, rfl⟩
abbrev main_call4_v3 : Ref sig .tc := ⟨.hbm, 55, rfl⟩
abbrev main_call4_v4 : Ref sig .tc := ⟨.hbm, 56, rfl⟩
abbrev main_call4_v5 : Ref sig .tc := ⟨.hbm, 57, rfl⟩
abbrev main_call4_v6 : Ref sig .tc := ⟨.hbm, 58, rfl⟩
abbrev main_call4_v7 : Ref sig .tc := ⟨.hbm, 59, rfl⟩
abbrev main_call4_v8 : Ref sig .tc := ⟨.hbm, 60, rfl⟩
abbrev main_call4_c : Ref sig .tc := ⟨.hbm, 61, rfl⟩
abbrev main_call4_v9 : Ref sig .tc := ⟨.hbm, 62, rfl⟩
abbrev main_call4_v10 : Ref sig .tc := ⟨.hbm, 63, rfl⟩
abbrev main_call4_v11 : Ref sig .tc := ⟨.hbm, 64, rfl⟩
abbrev main_call4_c_0 : Ref sig .tc := ⟨.hbm, 65, rfl⟩
abbrev main_call4_v12 : Ref sig .tc := ⟨.hbm, 66, rfl⟩
abbrev main_call4_v13 : Ref sig .tc := ⟨.hbm, 67, rfl⟩
abbrev main_v21 : Ref sig .tc := ⟨.hbm, 68, rfl⟩
abbrev main_c_8 : Ref sig .tc := ⟨.hbm, 69, rfl⟩
abbrev main_v22 : Ref sig .tc := ⟨.hbm, 70, rfl⟩
abbrev main_v23 : Ref sig .tc := ⟨.hbm, 71, rfl⟩
abbrev main_v24 : Ref sig .tc := ⟨.hbm, 72, rfl⟩
abbrev main_c_9 : Ref sig .tc := ⟨.hbm, 73, rfl⟩
abbrev main_v25 : Ref sig .tc := ⟨.hbm, 74, rfl⟩
abbrev main_v26 : Ref sig .tc := ⟨.hbm, 75, rfl⟩
abbrev main_c_10 : Ref sig .tc := ⟨.hbm, 76, rfl⟩
abbrev main_v27 : Ref sig .tc := ⟨.hbm, 77, rfl⟩
abbrev main_v28 : Ref sig .tc := ⟨.hbm, 78, rfl⟩
abbrev main_c_11 : Ref sig .tc := ⟨.hbm, 79, rfl⟩
abbrev main_v29 : Ref sig .tc := ⟨.hbm, 80, rfl⟩
abbrev main_v30 : Ref sig .tc := ⟨.hbm, 81, rfl⟩
abbrev main_c_12 : Ref sig .tc := ⟨.hbm, 82, rfl⟩
abbrev main_v31 : Ref sig .tc := ⟨.hbm, 83, rfl⟩
abbrev main_v32 : Ref sig .tc := ⟨.hbm, 84, rfl⟩
abbrev main_c_13 : Ref sig .tc := ⟨.hbm, 85, rfl⟩
abbrev main_v33 : Ref sig .tc := ⟨.hbm, 86, rfl⟩
abbrev main_v34 : Ref sig .tc := ⟨.hbm, 87, rfl⟩
abbrev main_c_14 : Ref sig .tc := ⟨.hbm, 88, rfl⟩
abbrev main_v35 : Ref sig .tc := ⟨.hbm, 89, rfl⟩
abbrev main_v36 : Ref sig .tc := ⟨.hbm, 90, rfl⟩
abbrev main_c_15 : Ref sig .tc := ⟨.hbm, 91, rfl⟩
abbrev main_v37 : Ref sig .tc := ⟨.hbm, 92, rfl⟩
abbrev main_v38 : Ref sig .tc := ⟨.hbm, 93, rfl⟩
abbrev main_c_16 : Ref sig .tc := ⟨.hbm, 94, rfl⟩
abbrev main_v39 : Ref sig .tc := ⟨.hbm, 95, rfl⟩
abbrev main_v40 : Ref sig .tc := ⟨.hbm, 96, rfl⟩
abbrev main_v41 : Ref sig .tc := ⟨.hbm, 97, rfl⟩
abbrev main_v42 : Ref sig .tc := ⟨.hbm, 98, rfl⟩
abbrev main_v43 : Ref sig .tc := ⟨.hbm, 99, rfl⟩
abbrev main_v44 : Ref sig .tc := ⟨.hbm, 100, rfl⟩
abbrev main_v45 : Ref sig .tc := ⟨.hbm, 101, rfl⟩
abbrev main_v46 : Ref sig .tc := ⟨.hbm, 102, rfl⟩
abbrev main_v47 : Ref sig .tc := ⟨.hbm, 103, rfl⟩
abbrev main_v48 : Ref sig .tc := ⟨.hbm, 104, rfl⟩
abbrev main_v49 : Ref sig .tc := ⟨.hbm, 105, rfl⟩
abbrev main_v50 : Ref sig .tc := ⟨.hbm, 106, rfl⟩
abbrev main_v51 : Ref sig .tc := ⟨.hbm, 107, rfl⟩
abbrev main_v52 : Ref sig .tc := ⟨.hbm, 108, rfl⟩
abbrev main_v53 : Ref sig .tc := ⟨.hbm, 109, rfl⟩
abbrev main_v54 : Ref sig .tc := ⟨.hbm, 110, rfl⟩
abbrev main_v55 : Ref sig .tc := ⟨.hbm, 111, rfl⟩
abbrev main_v56 : Ref sig .tc := ⟨.hbm, 112, rfl⟩
abbrev main_v57 : Ref sig .tc := ⟨.hbm, 113, rfl⟩
abbrev main_v58 : Ref sig .tc := ⟨.hbm, 114, rfl⟩
abbrev main_v59 : Ref sig .tc := ⟨.hbm, 115, rfl⟩
abbrev main_v60 : Ref sig .tc := ⟨.hbm, 116, rfl⟩
abbrev main_v61 : Ref sig .tc := ⟨.hbm, 117, rfl⟩
abbrev main_v62 : Ref sig .tc := ⟨.hbm, 118, rfl⟩
abbrev main_v63 : Ref sig .tc := ⟨.hbm, 119, rfl⟩

abbrev nD : Nat := 1
abbrev τ : Topo := Topo.v7x

variable {F : FTy → Type} [FloatOps F]

class Facts₀ : Prop where
  slices_S32768x2_S32768x1_0_0 : S32768x2.Slices ![0, 0] S32768x1
  shapeCasts_S32768x1_S32768 : S32768x1.ShapeCasts S32768
  bcast_S_S32768 : S_.BroadcastsInDim S32768 (![] : Fin 0 → Fin S32768.rank)
  slices_S32768x2_S32768x1_0_1 : S32768x2.Slices ![0, 1] S32768x1
  bcast_S_S3600 : S_.BroadcastsInDim S3600 (![] : Fin 0 → Fin S3600.rank)
  bcast_S32768_S1x32768_1 : S32768.BroadcastsInDim S1x32768 (![1] : Fin 1 → Fin S1x32768.rank)
  bcast_S3600_S3600x1_0 : S3600.BroadcastsInDim S3600x1 (![0] : Fin 1 → Fin S3600x1.rank)
  bcast_S1x32768_S3600x32768_0_1 : S1x32768.BroadcastsInDim S3600x32768 (![0, 1] : Fin 2 → Fin S3600x32768.rank)
  bcast_S3600x1_S3600x32768_0_1 : S3600x1.BroadcastsInDim S3600x32768 (![0, 1] : Fin 2 → Fin S3600x32768.rank)

variable [Facts₀]

class Facts : Prop extends Facts₀ where

variable [Facts]
-- ==== Proof.Spec.lean ====
/-
  The overlap test of one screen tile against one point's bounding box, and the whole mask of tiles against points.

  A point with clamped integer box [xmin, xmax] × [ymin, ymax] touches the tile [left, right] × [top, bottom] when
  the two intervals overlap on both axes: min(xmax, right) > max(xmin, left) and min(ymax, bottom) > max(ymin, top),
  compared as signed 32-bit words. The mask has one row per tile and one column per point.

  Also here: the three screen bounds 0, 1280 and 720 as floats. Converted from the integer word, or spelt as the f32
  pattern, each is the same real number at the ideal values: 0x44A00000 is 1.25 · 2^10 and 0x44340000 is 1.40625 · 2^9.
-/
import Idealize.ShloMosaic.PureOps
import Idealize.ShloMosaic.PureOps.Ideal
import Idealize.ShloMosaic.PureOps.Ideal.Laws
import Idealize.ShloMosaic.Lib.ValueIdx

noncomputable section

namespace Cert.Overlap

open Idealize.ShloMosaic Idealize.ShloMosaic.ValueIdx

/-- The points' axis, the tiles' axis, and the mask's shape. -/
abbrev Pts : Shape := ⟨1, ![32768]⟩
abbrev Tiles : Shape := ⟨1, ![3600]⟩
abbrev Grid : Shape := ⟨2, ![3600, 32768]⟩

/-- One tile against one box: the intervals overlap on both axes. -/
def bit (xmin ymin xmax ymax left top right bottom : BitVec 32) : BitVec 1 :=
  IntOp.andi (IntOp.cmpi .sgt (IntOp.minsi xmax right) (IntOp.maxsi xmin left))
    (IntOp.cmpi .sgt (IntOp.minsi ymax bottom) (IntOp.maxsi ymin top))

/-- Every tile against every point: entry (i, j) tests tile i against point j's box. -/
def mask (xmin ymin xmax ymax : IVec Pts 32) (left top right bottom : IVec Tiles 32) : IVec Grid 1 :=
  fun ij => bit (xmin (ix1 (ij 1 : Fin 32768))) (ymin (ix1 (ij 1 : Fin 32768))) (xmax (ix1 (ij 1 : Fin 32768)))
    (ymax (ix1 (ij 1 : Fin 32768))) (left (ix1 (ij 0 : Fin 3600))) (top (ix1 (ij 0 : Fin 3600)))
    (right (ix1 (ij 0 : Fin 3600))) (bottom (ix1 (ij 0 : Fin 3600)))

theorem mask_apply (xmin ymin xmax ymax : IVec Pts 32) (left top right bottom : IVec Tiles 32) (i : Fin 3600) (j : Fin 32768) :
    mask xmin ymin xmax ymax left top right bottom (ix2 i j)
      = bit (xmin (ix1 j)) (ymin (ix1 j)) (xmax (ix1 j)) (ymax (ix1 j)) (left (ix1 i)) (top (ix1 i)) (right (ix1 i)) (bottom (ix1 i)) := rfl

/-- A bit widened to a word is nonzero exactly when the bit is set. -/
theorem widen_ne_zero : ∀ b : BitVec 1, IntOp.cmpi .ne (b.setWidth 32) 0#32 = b := by decide

/-- The lower bound: the integer 0 converted is the float pattern of +0.0. -/
theorem lo_0 : (FloatOps.sitofp (F := Ideal) .f32 (0#32 : BitVec 32)) = FloatOps.ofBits (F := Ideal) .f32 0x00000000#32 := by
  show ((((0#32 : BitVec 32).toInt : ℤ) : ℝ) : EReal) = Ideal.ofBits .f32 0x00000000#32
  rw [Ideal.ofBits_zero_f32]; simp

/-- The screen's width: the integer 1280 converted is the float pattern 0x44A00000. -/
theorem hi_1280 : (FloatOps.sitofp (F := Ideal) .f32 (1280#32 : BitVec 32)) = FloatOps.ofBits (F := Ideal) .f32 0x44A00000#32 := by
  show ((((1280#32 : BitVec 32).toInt : ℤ) : ℝ) : EReal) = Ideal.ofBits .f32 0x44A00000#32
  have h : Ideal.ofBits .f32 0x44A00000#32 = ((1280 : ℝ) : EReal) := by
    simp [Ideal.ofBits, Ideal.ieee, -EReal.coe_mul]; norm_num
  rw [h, show (1280#32 : BitVec 32).toInt = 1280 by decide]; norm_num

/-- The screen's height: the integer 720 converted is the float pattern 0x44340000. -/
theorem hi_720 : (FloatOps.sitofp (F := Ideal) .f32 (720#32 : BitVec 32)) = FloatOps.ofBits (F := Ideal) .f32 0x44340000#32 := by
  show ((((720#32 : BitVec 32).toInt : ℤ) : ℝ) : EReal) = Ideal.ofBits .f32 0x44340000#32
  have h : Ideal.ofBits .f32 0x44340000#32 = ((720 : ℝ) : EReal) := by
    simp [Ideal.ofBits, Ideal.ieee, -EReal.coe_mul]; norm_num
  rw [h, show (720#32 : BitVec 32).toInt = 720 by decide]; norm_num

end Cert.Overlap

end
-- ==== Proof.KernelValue.lean ====
/-
  The kernel program's run, read back: what the result buffer holds.

  The region walks the 3600 tiles in 45 blocks of 80 rows. At block t it reads the four boxes' vectors whole (one row
  of 32768 points each, the same at every block) and rows 80t … 80t+79 of the four tile-bound columns, and writes rows
  80t … 80t+79 of a 3600 × 32768 array of words: at (80t + a, b) the overlap test of tile 80t + a against point b's
  box, widened from a bit to a word. The 45 blocks tile the array, so after the region entry (i, j) is the widened
  test of tile i against point j. The lines after the region compare that array with zero: a widened bit is nonzero
  exactly when the bit is set, so the result is the mask itself.

  Before the region the host computes, per point, the box (position minus / plus radius, clamped to the screen
  [0, 1280] × [0, 720], truncated to a signed word) and, per tile t, its bounds from column x = t div 45 and row
  y = t - 45·x: [16x, min(16(x+1), 1280)] × [16y, min(16(y+1), 720)]; the vectors are then cast to one row, and to
  one column.
-/
import proofs.«168343_j59493886984836_1_alg».proof.Proof.Gen.KernelIdeal.Frame
import proofs.«168343_j59493886984836_1_alg».proof.Proof.Spec
import Idealize.ShloMosaic.Lib.Pipeline.Value
import Idealize.ShloMosaic.Lib.ValueIdx
import Idealize.ShloMosaic.Lib.ValueLayout
import Idealize.ShloMosaic.Lib.StableHlo.Run

set_option maxRecDepth 16384

noncomputable section

namespace Cert.KernelIdeal.KVal

open Cert.KernelIdeal Cert.KernelIdeal.Gen Idealize.ShloMosaic Idealize.ShloMosaic.TcCoe Idealize.SL.Sem
open Idealize.ShloMosaic.StableHlo Idealize.ShloMosaic.ValueIdx
open Idealize.ShloMosaic.Pipeline (Dat Cfg Window)

variable {F : FTy → Type} [FloatOps F]

/-! ## The body's arithmetic at an index -/

/-- One row cast to itself and laid along 80 rows reads, at (a, b), the row at b. -/
theorem row_read {α : Type} (x : S1x32768.Idx → α) (h₁ : S1x32768.ShapeCasts S1x32768) (h₂ : S1x32768.Broadcasts S80x32768)
    (a : Fin 80) (b : Fin 32768) :
    broadcastTo S80x32768 (shapeCast S1x32768 x h₁) h₂ (ix2 a b) = x (ix2 (0 : Fin 1) b) :=
  (broadcastTo_1b_ab_apply _ h₂ a b).trans (congrFun (shapeCast_self x h₁) _)

/-- One column cast to itself and laid along 32768 columns reads, at (a, b), the column at a. -/
theorem col_read {α : Type} (y : S80x1.Idx → α) (h₁ : S80x1.ShapeCasts S80x1) (h₂ : S80x1.Broadcasts S80x32768)
    (a : Fin 80) (b : Fin 32768) :
    broadcastTo S80x32768 (shapeCast S80x1 y h₁) h₂ (ix2 a b) = y (ix2 a (0 : Fin 1)) := by
  refine (broadcastTo_apply _ h₂ (ix2 a b) (ix2 a (0 : Fin 1)) fun ax => ?_).trans (congrFun (shapeCast_self y h₁) _)
  match ax with
  | ⟨0, _⟩ =>
    show a.val = if (80 : ℕ) = 1 then 0 else a.val
    split
    · omega
    · rfl
  | ⟨1, _⟩ => rfl

/-- The stored word at (a, b) of a block: the overlap test of the block's a-th tile against point b, widened. -/
theorem pay_apply (x0 x1 x2 x3 : Vec F S1x32768 .i32) (x4 x5 x6 x7 : Vec F S80x1 .i32) (a : Fin 80) (b : Fin 32768) :
    k0_pay1 x0 x1 x2 x3 x4 x5 x6 x7 (ix2 a b)
      = (Cert.Overlap.bit (x0 (ix2 (0 : Fin 1) b)) (x1 (ix2 (0 : Fin 1) b)) (x2 (ix2 (0 : Fin 1) b)) (x3 (ix2 (0 : Fin 1) b))
          (x4 (ix2 a (0 : Fin 1))) (x5 (ix2 a (0 : Fin 1))) (x6 (ix2 a (0 : Fin 1))) (x7 (ix2 a (0 : Fin 1)))).setWidth 32 := by
  unfold k0_pay1 Cert.Overlap.bit
  dsimp only [extui, andi, cmpi, minsi, maxsi]
  rw [row_read x2, row_read x0, row_read x3, row_read x1, col_read x6, col_read x4, col_read x7, col_read x5]

/-! ## The arrays the region reads, and the array it leaves -/

variable (m : (ℓ : Loc nD τ sig) → Buf (Elt F) ℓ) (ρ : Dev nD → PrngReg)

/-- The four boxes' coordinates, one row each, and the four tile bounds, one column each, as the region finds them. -/
abbrev Xmin (c : Dev nD) : IVec S1x32768 32 := V m c main_v37
abbrev Ymin (c : Dev nD) : IVec S1x32768 32 := V m c main_v38
abbrev Xmax (c : Dev nD) : IVec S1x32768 32 := V m c main_v39
abbrev Ymax (c : Dev nD) : IVec S1x32768 32 := V m c main_v40
abbrev Lft (c : Dev nD) : IVec S3600x1 32 := V m c main_v41
abbrev Top (c : Dev nD) : IVec S3600x1 32 := V m c main_v42
abbrev Rgt (c : Dev nD) : IVec S3600x1 32 := V m c main_v43
abbrev Bot (c : Dev nD) : IVec S3600x1 32 := V m c main_v44

/-- A one-row array as a vector of points; a one-column array as a vector of tiles. -/
def rowVec (X : IVec S1x32768 32) : IVec Cert.Overlap.Pts 32 := fun k => X (ix2 (0 : Fin 1) (k 0 : Fin 32768))
def colVec (Y : IVec S3600x1 32) : IVec Cert.Overlap.Tiles 32 := fun k => Y (ix2 (k 0 : Fin 3600) (0 : Fin 1))

/-- The array of words the region leaves: the widened overlap test of tile i against point j. -/
def Words (c : Dev nD) : IVec S3600x32768 32 := fun ij =>
  (Cert.Overlap.mask (rowVec (Xmin m c)) (rowVec (Ymin m c)) (rowVec (Xmax m c)) (rowVec (Ymax m c))
    (colVec (Lft m c)) (colVec (Top m c)) (colVec (Rgt m c)) (colVec (Bot m c)) ij).setWidth 32

theorem Words_apply (c : Dev nD) (i : Fin 3600) (j : Fin 32768) :
    Words m c (ix2 i j)
      = (Cert.Overlap.bit (Xmin m c (ix2 (0 : Fin 1) j)) (Ymin m c (ix2 (0 : Fin 1) j)) (Xmax m c (ix2 (0 : Fin 1) j)) (Ymax m c (ix2 (0 : Fin 1) j))
          (Lft m c (ix2 i (0 : Fin 1))) (Top m c (ix2 i (0 : Fin 1))) (Rgt m c (ix2 i (0 : Fin 1))) (Bot m c (ix2 i (0 : Fin 1)))).setWidth 32 := rfl

/-! ## Where a block's entries sit in the arrays -/

/-- The printed index maps, decided over the 45 blocks: the boxes' rows do not move; the tile columns and the result
    move down by one block of 80 rows per step. -/
theorem idx_facts : ∀ t : Fin cfg0.N,
    win0_0.index t (0 : Fin 2) = 0 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0
    ∧ win0_7.index t (0 : Fin 2) = t.val ∧ win0_7.index t (1 : Fin 2) = 0
    ∧ win0_8.index t (0 : Fin 2) = t.val ∧ win0_8.index t (1 : Fin 2) = 0 :=
  (by decide +kernel : ∀ t : Fin grid0.N, _)

theorem t_lt (t : Fin cfg0.N) : t.val < 45 := N_0 ▸ t.isLt

/-- Row a of block t is row 80t + a of the 3600. -/
def rowOf (t : Fin cfg0.N) (a : Fin 80) : Fin 3600 := ⟨80 * t.val + a.val, by have := t_lt t; omega⟩

/-- A boxes' window's block is the whole row, at every step. -/
theorem emb0 (t : Fin cfg0.N) (b : Fin 32768) :
    ((cfg0.win 0).blk t).view.emb (ix2 (0 : Fin 1) b) = ix2 (0 : Fin 1) b := by
  obtain ⟨e00, e01, e10, e11, e20, e21, e30, e31, e40, e41, e50, e51, e60, e61, e70, e71, e80, e81⟩ := idx_facts t
  funext ax; apply Fin.ext
  match ax with
  | ⟨0, _⟩ => show win0_0.index t (0 : Fin 2) * 1 + 1 * 0 = 0; omega
  | ⟨1, _⟩ => show win0_0.index t (1 : Fin 2) * 32768 + 1 * b.val = b.val; omega
theorem emb1 (t : Fin cfg0.N) (b : Fin 32768) :
    ((cfg0.win 1).blk t).view.emb (ix2 (0 : Fin 1) b) = ix2 (0 : Fin 1) b := by
  obtain ⟨e00, e01, e10, e11, e20, e21, e30, e31, e40, e41, e50, e51, e60, e61, e70, e71, e80, e81⟩ := idx_facts t
  funext ax; apply Fin.ext
  match ax with
  | ⟨0, _⟩ => show win0_1.index t (0 : Fin 2) * 1 + 1 * 0 = 0; omega
  | ⟨1, _⟩ => show win0_1.index t (1 : Fin 2) * 32768 + 1 * b.val = b.val; omega
theorem emb2 (t : Fin cfg0.N) (b : Fin 32768) :
    ((cfg0.win 2).blk t).view.emb (ix2 (0 : Fin 1) b) = ix2 (0 : Fin 1) b := by
  obtain ⟨e00, e01, e10, e11, e20, e21, e30, e31, e40, e41, e50, e51, e60, e61, e70, e71, e80, e81⟩ := idx_facts t
  funext ax; apply Fin.ext
  match ax with
  | ⟨0, _⟩ => show win0_2.index t (0 : Fin 2) * 1 + 1 * 0 = 0; omega
  | ⟨1, _⟩ => show win0_2.index t (1 : Fin 2) * 32768 + 1 * b.val = b.val; omega
theorem emb3 (t : Fin cfg0.N) (b : Fin 32768) :
    ((cfg0.win 3).blk t).view.emb (ix2 (0 : Fin 1) b) = ix2 (0 : Fin 1) b := by
  obtain ⟨e00, e01, e10, e11, e20, e21, e30, e31, e40, e41, e50, e51, e60, e61, e70, e71, e80, e81⟩ := idx_facts t
  funext ax; apply Fin.ext
  match ax with
  | ⟨0, _⟩ => show win0_3.index t (0 : Fin 2) * 1 + 1 * 0 = 0; omega
  | ⟨1, _⟩ => show win0_3.index t (1 : Fin 2) * 32768 + 1 * b.val = b.val; omega

/-- A tile window's block at step t is rows 80t … 80t+79 of its column. -/
theorem emb4 (t : Fin cfg0.N) (a : Fin 80) :
    ((cfg0.win 4).blk t).view.emb (ix2 a (0 : Fin 1)) = ix2 (rowOf t a) (0 : Fin 1) := by
  obtain ⟨e00, e01, e10, e11, e20, e21, e30, e31, e40, e41, e50, e51, e60, e61, e70, e71, e80, e81⟩ := idx_facts t
  funext ax; apply Fin.ext
  match ax with
  | ⟨0, _⟩ => show win0_4.index t (0 : Fin 2) * 80 + 1 * a.val = 80 * t.val + a.val; omega
  | ⟨1, _⟩ => show win0_4.index t (1 : Fin 2) * 1 + 1 * 0 = 0; omega
theorem emb5 (t : Fin cfg0.N) (a : Fin 80) :
    ((cfg0.win 5).blk t).view.emb (ix2 a (0 : Fin 1)) = ix2 (rowOf t a) (0 : Fin 1) := by
  obtain ⟨e00, e01, e10, e11, e20, e21, e30, e31, e40, e41, e50, e51, e60, e61, e70, e71, e80, e81⟩ := idx_facts t
  funext ax; apply Fin.ext
  match ax with
  | ⟨0, _⟩ => show win0_5.index t (0 : Fin 2) * 80 + 1 * a.val = 80 * t.val + a.val; omega
  | ⟨1, _⟩ => show win0_5.index t (1 : Fin 2) * 1 + 1 * 0 = 0; omega
theorem emb6 (t : Fin cfg0.N) (a : Fin 80) :
    ((cfg0.win 6).blk t).view.emb (ix2 a (0 : Fin 1)) = ix2 (rowOf t a) (0 : Fin 1) := by
  obtain ⟨e00, e01, e10, e11, e20, e21, e30, e31, e40, e41, e50, e51, e60, e61, e70, e71, e80, e81⟩ := idx_facts t
  funext ax; apply Fin.ext
  match ax with
  | ⟨0, _⟩ => show win0_6.index t (0 : Fin 2) * 80 + 1 * a.val = 80 * t.val + a.val; omega
  | ⟨1, _⟩ => show win0_6.index t (1 : Fin 2) * 1 + 1 * 0 = 0; omega
theorem emb7 (t : Fin cfg0.N) (a : Fin 80) :
    ((cfg0.win 7).blk t).view.emb (ix2 a (0 : Fin 1)) = ix2 (rowOf t a) (0 : Fin 1) := by
  obtain ⟨e00, e01, e10, e11, e20, e21, e30, e31, e40, e41, e50, e51, e60, e61, e70, e71, e80, e81⟩ := idx_facts t
  funext ax; apply Fin.ext
  match ax with
  | ⟨0, _⟩ => show win0_7.index t (0 : Fin 2) * 80 + 1 * a.val = 80 * t.val + a.val; omega
  | ⟨1, _⟩ => show win0_7.index t (1 : Fin 2) * 1 + 1 * 0 = 0; omega

/-- The result window's block at step t is rows 80t … 80t+79, all columns. -/
theorem emb8 (t : Fin cfg0.N) (a : Fin 80) (b : Fin 32768) :
    ((cfg0.win 8).blk t).view.emb (ix2 a b) = ix2 (rowOf t a) b := by
  obtain ⟨e00, e01, e10, e11, e20, e21, e30, e31, e40, e41, e50, e51, e60, e61, e70, e71, e80, e81⟩ := idx_facts t
  funext ax; apply Fin.ext
  match ax with
  | ⟨0, _⟩ => show win0_8.index t (0 : Fin 2) * 80 + 1 * a.val = 80 * t.val + a.val; omega
  | ⟨1, _⟩ => show win0_8.index t (1 : Fin 2) * 32768 + 1 * b.val = b.val; omega

/-- What each input block holds, entry by entry: the array as the region finds it, at the block's place. -/
theorem rd0 (c : Dev nD) (t : Fin cfg0.N) (b : Fin 32768) : iblk m c 0 t (ix2 (0 : Fin 1) b) = Xmin m c (ix2 (0 : Fin 1) b) := by
  show V m c main_v37 (((cfg0.win 0).blk t).view.emb (ix2 (0 : Fin 1) b)) = V m c main_v37 (ix2 (0 : Fin 1) b)
  rw [emb0]
theorem rd1 (c : Dev nD) (t : Fin cfg0.N) (b : Fin 32768) : iblk m c 1 t (ix2 (0 : Fin 1) b) = Ymin m c (ix2 (0 : Fin 1) b) := by
  show V m c main_v38 (((cfg0.win 1).blk t).view.emb (ix2 (0 : Fin 1) b)) = V m c main_v38 (ix2 (0 : Fin 1) b)
  rw [emb1]
theorem rd2 (c : Dev nD) (t : Fin cfg0.N) (b : Fin 32768) : iblk m c 2 t (ix2 (0 : Fin 1) b) = Xmax m c (ix2 (0 : Fin 1) b) := by
  show V m c main_v39 (((cfg0.win 2).blk t).view.emb (ix2 (0 : Fin 1) b)) = V m c main_v39 (ix2 (0 : Fin 1) b)
  rw [emb2]
theorem rd3 (c : Dev nD) (t : Fin cfg0.N) (b : Fin 32768) : iblk m c 3 t (ix2 (0 : Fin 1) b) = Ymax m c (ix2 (0 : Fin 1) b) := by
  show V m c main_v40 (((cfg0.win 3).blk t).view.emb (ix2 (0 : Fin 1) b)) = V m c main_v40 (ix2 (0 : Fin 1) b)
  rw [emb3]
theorem rd4 (c : Dev nD) (t : Fin cfg0.N) (a : Fin 80) : iblk m c 4 t (ix2 a (0 : Fin 1)) = Lft m c (ix2 (rowOf t a) (0 : Fin 1)) := by
  show V m c main_v41 (((cfg0.win 4).blk t).view.emb (ix2 a (0 : Fin 1))) = V m c main_v41 (ix2 (rowOf t a) (0 : Fin 1))
  rw [emb4]
theorem rd5 (c : Dev nD) (t : Fin cfg0.N) (a : Fin 80) : iblk m c 5 t (ix2 a (0 : Fin 1)) = Top m c (ix2 (rowOf t a) (0 : Fin 1)) := by
  show V m c main_v42 (((cfg0.win 5).blk t).view.emb (ix2 a (0 : Fin 1))) = V m c main_v42 (ix2 (rowOf t a) (0 : Fin 1))
  rw [emb5]
theorem rd6 (c : Dev nD) (t : Fin cfg0.N) (a : Fin 80) : iblk m c 6 t (ix2 a (0 : Fin 1)) = Rgt m c (ix2 (rowOf t a) (0 : Fin 1)) := by
  show V m c main_v43 (((cfg0.win 6).blk t).view.emb (ix2 a (0 : Fin 1))) = V m c main_v43 (ix2 (rowOf t a) (0 : Fin 1))
  rw [emb6]
theorem rd7 (c : Dev nD) (t : Fin cfg0.N) (a : Fin 80) : iblk m c 7 t (ix2 a (0 : Fin 1)) = Bot m c (ix2 (rowOf t a) (0 : Fin 1)) := by
  show V m c main_v44 (((cfg0.win 7).blk t).view.emb (ix2 a (0 : Fin 1))) = V m c main_v44 (ix2 (rowOf t a) (0 : Fin 1))
  rw [emb7]

/-! ## The blocks, and the whole array -/

theorem hz : (![0, 0] : Fin 2 → Nat) = fun _ => 0 := funext fun a => by fin_cases a <;> rfl

/-- What step t writes back is block t of the array of widened tests. -/
theorem flushed_eq (c : Dev nD) (t : Fin cfg0.N) :
    (dats m 0 c).flushed 8 t = ((cfg0.win 8).blk t).view.read (Elt F) (Words m c) := by
  show (cfg0.win 8).cut (grid0.coords t) ((dats m 0 c).after 8 t) = _
  rw [after0_8]
  unfold out0_8
  rw [View.canon_unit_zero hz]
  simp only [View.ld_unit_zero (S := S1x32768) hz, View.ld_unit_zero (S := S80x1) hz]
  funext j
  obtain ⟨a, b, rfl⟩ : ∃ (a : Fin 80) (b : Fin 32768), j = ix2 a b := ⟨j 0, j 1, eq_ix2 j⟩
  show k0_pay1 (iblk m c 0 t) (iblk m c 1 t) (iblk m c 2 t) (iblk m c 3 t) (iblk m c 4 t) (iblk m c 5 t) (iblk m c 6 t) (iblk m c 7 t) (ix2 a b)
      = Words m c (((cfg0.win 8).blk t).view.emb (ix2 a b))
  refine (pay_apply (F := F) (iblk m c 0 t) (iblk m c 1 t) (iblk m c 2 t) (iblk m c 3 t) (iblk m c 4 t) (iblk m c 5 t) (iblk m c 6 t) (iblk m c 7 t) a b).trans ?_
  rw [emb8, Words_apply, rd0, rd1, rd2, rd3, rd4, rd5, rd6, rd7]

/-- An index is in step t's block iff each coordinate is in the block's range on its axis. -/
theorem mem_blk (t : Fin cfg0.N) (i : S3600x32768.Idx) :
    i ∈ ((cfg0.win 8).blk t).view.set ↔ ∀ a : Fin 2, win0_8.index t a * S80x32768.size a ≤ (i a).val ∧ (i a).val < win0_8.index t a * S80x32768.size a + S80x32768.size a := by
  show i ∈ ((View.whole main_v45).slice (win0_8.rect t)).set ↔ _
  rw [View.set_slice_whole, Rect.mem_set_unit]
  exact Iff.rfl

/-- Every row lies in the block of its own eighty: the 45 blocks tile the array. -/
theorem cover (i : S3600x32768.Idx) : ∃ t : Fin cfg0.N, (cfg0.win 8).flush t = true ∧ i ∈ ((cfg0.win 8).blk t).view.set := by
  have hi0 : (i 0).val < 3600 := (i 0).isLt
  have hi1 : (i 1).val < 32768 := (i 1).isLt
  let t : Fin cfg0.N := ⟨(i 0).val / 80, by rw [show cfg0.N = 45 from N_0]; omega⟩
  obtain ⟨e00, e01, e10, e11, e20, e21, e30, e31, e40, e41, e50, e51, e60, e61, e70, e71, e80, e81⟩ := idx_facts t
  have ht : t.val = (i 0).val / 80 := rfl
  refine ⟨t, flush0_8 t, ?_⟩
  rw [mem_blk]
  intro a
  match a with
  | ⟨0, _⟩ => show win0_8.index t (0 : Fin 2) * 80 ≤ (i 0).val ∧ (i 0).val < win0_8.index t (0 : Fin 2) * 80 + 80; omega
  | ⟨1, _⟩ => show win0_8.index t (1 : Fin 2) * 32768 ≤ (i 1).val ∧ (i 1).val < win0_8.index t (1 : Fin 2) * 32768 + 32768; omega

/-- The array after the region: the widened test of every tile against every point. -/
theorem final (c : Dev nD) : (dats m 0 c).arrAt 8 cfg0.N = Words m c :=
  (dats m 0 c).arrAt_eq_of_cover 8 (Words m c) (fun t _ => flushed_eq m c t) cover

/-! ## The lines after the region -/

/-- The result buffer after the lines that follow the region: the array of widened tests compared with zero, which is
    the mask of the tests themselves. -/
theorem tail_eq (c : Dev nD) :
    Pipeline.afterTail₀ cfgs (dats m) 0 (V0 m) [hostOps1] c main_v48
      = Cert.Overlap.mask (rowVec (Xmin m c)) (rowVec (Ymin m c)) (rowVec (Xmax m c)) (rowVec (Ymax m c))
          (colVec (Lft m c)) (colVec (Top m c)) (colVec (Rgt m c)) (colVec (Bot m c)) := by
  have e : Pipeline.withArrays spec0 c (V0 m c) (fun w => (dats m 0 c).arrAt w cfg0.N) (Proc.devRef .tc main_v45) = Words m c :=
    (Pipeline.withArrays_arr spec0 launch0.win.arr_inj c _ _ 8).trans (final m c)
  unfold Pipeline.afterTail₀
  show StableHlo.after hostOps1 _ (Proc.devRef .tc main_v48) = _
  after_results
  rw [e]
  funext ij
  exact Cert.Overlap.widen_ne_zero _

/-! ## The run -/

/-- The kernel program's run with the result named: every weakly fair execution terminates with the result buffer at
    the overlap mask of the arrays the region found, and the two arguments unchanged. -/
theorem run_found :
    θ_run defs (onTc (τ := τ) (main (F := F))) ⟨m, fun _ => 0, ρ⟩ fun r => ∀ c : Dev nD,
      r.2.mem ((c.tc : Thread nD τ).loc main_v48)
          = Cert.Overlap.mask (rowVec (Xmin m c)) (rowVec (Ymin m c)) (rowVec (Xmax m c)) (rowVec (Ymax m c))
              (colVec (Lft m c)) (colVec (Top m c)) (colVec (Rgt m c)) (colVec (Bot m c))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v48 (Pipeline.mem_restRefs_of main_v48 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Cert.KernelIdeal.KVal

end
-- ==== Proof.KernelHost.lean ====
/-
  The kernel program's host lines before the region, read back: what the eight arrays the region reads hold.

  Per point: the box is the position minus / plus the radius, clamped to the screen [0, 1280] × [0, 720] (the bounds
  are float constants), truncated to a signed word; each of the four coordinate vectors is then cast to one row.
  Per tile t: column x = t div 45 (floor division, spelt as truncating division corrected where signs differ and the
  remainder is nonzero), row y = t - 45·x; the tile spans [16x, min(16(x+1), 1280)] × [16y, min(16(y+1), 720)]; each of
  the four bound vectors is then cast to one column.
-/
import proofs.«168343_j59493886984836_1_alg».proof.Proof.Gen.KernelIdeal.Frame
import proofs.«168343_j59493886984836_1_alg».proof.Proof.Spec
import Idealize.ShloMosaic.Lib.Pipeline.Value
import Idealize.ShloMosaic.Lib.ValueIdx
import Idealize.ShloMosaic.Lib.StableHlo.Run

set_option maxRecDepth 16384

noncomputable section

namespace Cert.KernelIdeal.KHost

open Cert.KernelIdeal Cert.KernelIdeal.Gen Idealize.ShloMosaic Idealize.ShloMosaic.TcCoe Idealize.SL.Sem
open Idealize.ShloMosaic.StableHlo Idealize.ShloMosaic.ValueIdx

variable {F : FTy → Type} [FloatOps F]

/-! ## The pieces, as pure terms of the arguments -/

/-- The x coordinates: column 0 of the positions, as a vector. -/
def colX (p : FVec F S32768x2 .f32) : FVec F S32768 .f32 :=
  shapeCast S32768 (extractStridedSlice S32768x1 ![0, 0] p slices_S32768x2_S32768x1_0_0) shapeCasts_S32768x1_S32768
/-- The y coordinates: column 1. -/
def colY (p : FVec F S32768x2 .f32) : FVec F S32768 .f32 :=
  shapeCast S32768 (extractStridedSlice S32768x1 ![0, 1] p slices_S32768x2_S32768x1_0_1) shapeCasts_S32768x1_S32768

/-- Clamp to [lo, hi], the bounds given as float patterns: min(hi, max(lo, x)). -/
def clampF (lo hi : BitVec 32) (x : FVec F S32768 .f32) : FVec F S32768 .f32 :=
  minimumf (broadcastInDim S32768 ![] bcast_S_S32768 (constant S_ .f32 hi))
    (maximumf (broadcastInDim S32768 ![] bcast_S_S32768 (constant S_ .f32 lo)) x)

def xminK (p : FVec F S32768x2 .f32) (r : FVec F S32768 .f32) : IVec S32768 32 := fptosi 32 (clampF 0x00000000#32 0x44A00000#32 (subf (colX p) r))
def yminK (p : FVec F S32768x2 .f32) (r : FVec F S32768 .f32) : IVec S32768 32 := fptosi 32 (clampF 0x00000000#32 0x44340000#32 (subf (colY p) r))
def xmaxK (p : FVec F S32768x2 .f32) (r : FVec F S32768 .f32) : IVec S32768 32 := fptosi 32 (clampF 0x00000000#32 0x44A00000#32 (addf (colX p) r))
def ymaxK (p : FVec F S32768x2 .f32) (r : FVec F S32768 .f32) : IVec S32768 32 := fptosi 32 (clampF 0x00000000#32 0x44340000#32 (addf (colY p) r))

/-- A word on every tile. -/
abbrev every (b : BitVec 32) : IVec S3600 32 := broadcastInDim S3600 ![] bcast_S_S3600 (constantI S_ 32 b)

/-- The tile numbers 0 … 3599. -/
abbrev tileNo : IVec S3600 32 := iotaInDim S3600 32 0

/-- The tile's column: the tile number floor-divided by 45 (45 tiles per column). -/
def tileX : IVec S3600 32 :=
  select
    (andi (cmpi .ne (signi tileNo) (broadcastInDim S3600 ![] bcast_S_S3600 (signi (constantI S_ 32 45#32))))
      (cmpi .ne (Host.remsi tileNo (every 45#32)) (every 0#32)))
    (subi (Host.divsi tileNo (every 45#32)) (every 1#32))
    (Host.divsi tileNo (every 45#32))
/-- The tile's row: the tile number less 45 times its column. -/
def tileY : IVec S3600 32 := subi tileNo (muli tileX (every 45#32))

def leftK : IVec S3600 32 := muli tileX (every 16#32)
def topK : IVec S3600 32 := muli tileY (every 16#32)
def rightK : IVec S3600 32 := minsi (muli (addi tileX (every 1#32)) (every 16#32)) (every 1280#32)
def bottomK : IVec S3600 32 := minsi (muli (addi tileY (every 1#32)) (every 16#32)) (every 720#32)

/-! ## The arrays as the region finds them -/

variable (m : (ℓ : Loc nD τ sig) → Buf (Elt F) ℓ)

/-- The two arguments as launched. -/
abbrev pos (c : Dev nD) : FVec F S32768x2 .f32 := m ((c : Thread nD τ).loc main_arg0)
abbrev rad (c : Dev nD) : FVec F S32768 .f32 := m ((c : Thread nD τ).loc main_arg1)

theorem V_xmin (c : Dev nD) : (V m c main_v37 : IVec S1x32768 32)
    = fun i => shapeCast S1x32768 (xminK (pos m c) (rad m c)) shapeCasts_S32768_S1x32768 i := by
  dsimp only [V, V0]
  simp only [hostOps0, hostOps0_1, hostOps0_2, hostOps0_3, hostOps0_4, hostOps0_5, hostOps0_6, hostOps0_7, hostOps0_8, hostOps0_9, hostOps0_10,
    List.flatten_cons, List.flatten_nil, List.append_nil, List.cons_append, List.nil_append]
  after_results_simp
  rfl

theorem V_ymin (c : Dev nD) : (V m c main_v38 : IVec S1x32768 32)
    = fun i => shapeCast S1x32768 (yminK (pos m c) (rad m c)) shapeCasts_S32768_S1x32768 i := by
  dsimp only [V, V0]
  simp only [hostOps0, hostOps0_1, hostOps0_2, hostOps0_3, hostOps0_4, hostOps0_5, hostOps0_6, hostOps0_7, hostOps0_8, hostOps0_9, hostOps0_10,
    List.flatten_cons, List.flatten_nil, List.append_nil, List.cons_append, List.nil_append]
  after_results_simp
  rfl

theorem V_xmax (c : Dev nD) : (V m c main_v39 : IVec S1x32768 32)
    = fun i => shapeCast S1x32768 (xmaxK (pos m c) (rad m c)) shapeCasts_S32768_S1x32768 i := by
  dsimp only [V, V0]
  simp only [hostOps0, hostOps0_1, hostOps0_2, hostOps0_3, hostOps0_4, hostOps0_5, hostOps0_6, hostOps0_7, hostOps0_8, hostOps0_9, hostOps0_10,
    List.flatten_cons, List.flatten_nil, List.append_nil, List.cons_append, List.nil_append]
  after_results_simp
  rfl

theorem V_ymax (c : Dev nD) : (V m c main_v40 : IVec S1x32768 32)
    = fun i => shapeCast S1x32768 (ymaxK (pos m c) (rad m c)) shapeCasts_S32768_S1x32768 i := by
  dsimp only [V, V0]
  simp only [hostOps0, hostOps0_1, hostOps0_2, hostOps0_3, hostOps0_4, hostOps0_5, hostOps0_6, hostOps0_7, hostOps0_8, hostOps0_9, hostOps0_10,
    List.flatten_cons, List.flatten_nil, List.append_nil, List.cons_append, List.nil_append]
  after_results_simp
  rfl

theorem V_left (c : Dev nD) : (V m c main_v41 : IVec S3600x1 32)
    = fun i => shapeCast S3600x1 leftK shapeCasts_S3600_S3600x1 i := by
  dsimp only [V, V0]
  simp only [hostOps0, hostOps0_1, hostOps0_2, hostOps0_3, hostOps0_4, hostOps0_5, hostOps0_6, hostOps0_7, hostOps0_8, hostOps0_9, hostOps0_10,
    List.flatten_cons, List.flatten_nil, List.append_nil, List.cons_append, List.nil_append]
  after_results_simp
  rfl

theorem V_top (c : Dev nD) : (V m c main_v42 : IVec S3600x1 32)
    = fun i => shapeCast S3600x1 topK shapeCasts_S3600_S3600x1 i := by
  dsimp only [V, V0]
  simp only [hostOps0, hostOps0_1, hostOps0_2, hostOps0_3, hostOps0_4, hostOps0_5, hostOps0_6, hostOps0_7, hostOps0_8, hostOps0_9, hostOps0_10,
    List.flatten_cons, List.flatten_nil, List.append_nil, List.cons_append, List.nil_append]
  after_results_simp
  rfl

theorem V_right (c : Dev nD) : (V m c main_v43 : IVec S3600x1 32)
    = fun i => shapeCast S3600x1 rightK shapeCasts_S3600_S3600x1 i := by
  dsimp only [V, V0]
  simp only [hostOps0, hostOps0_1, hostOps0_2, hostOps0_3, hostOps0_4, hostOps0_5, hostOps0_6, hostOps0_7, hostOps0_8, hostOps0_9, hostOps0_10,
    List.flatten_cons, List.flatten_nil, List.append_nil, List.cons_append, List.nil_append]
  after_results_simp
  rfl

theorem V_bottom (c : Dev nD) : (V m c main_v44 : IVec S3600x1 32)
    = fun i => shapeCast S3600x1 bottomK shapeCasts_S3600_S3600x1 i := by
  dsimp only [V, V0]
  simp only [hostOps0, hostOps0_1, hostOps0_2, hostOps0_3, hostOps0_4, hostOps0_5, hostOps0_6, hostOps0_7, hostOps0_8, hostOps0_9, hostOps0_10,
    List.flatten_cons, List.flatten_nil, List.append_nil, List.cons_append, List.nil_append]
  after_results_simp
  rfl

end Cert.KernelIdeal.KHost

end
-- ==== Proof.KernelMask.lean ====
/-
  The kernel program's result as the overlap mask of the boxes and tile bounds its own host lines compute.

  The region reads each box coordinate as one row and each tile bound as one column; row 0 of a vector cast to one row
  is the vector, and column 0 of a vector cast to one column is the vector.
-/
import proofs.«168343_j59493886984836_1_alg».proof.Proof.KernelValue
import proofs.«168343_j59493886984836_1_alg».proof.Proof.KernelHost

noncomputable section

namespace Cert.KernelIdeal.KMask

open Cert.KernelIdeal Cert.KernelIdeal.Gen Idealize.ShloMosaic Idealize.ShloMosaic.TcCoe Idealize.SL.Sem
open Idealize.ShloMosaic.ValueIdx
open Cert.KernelIdeal.KVal Cert.KernelIdeal.KHost

variable {F : FTy → Type} [FloatOps F]

/-- A vector of points cast to one row: the row, read back as a vector, is the vector. -/
theorem row_of_cast (v : IVec S32768 32) :
    rowVec (fun i => shapeCast S1x32768 v shapeCasts_S32768_S1x32768 i) = v := by
  funext k
  obtain ⟨j, rfl⟩ : ∃ j : Fin 32768, k = ix1 j := ⟨k 0, eq_ix1 k⟩
  show shapeCast S1x32768 v shapeCasts_S32768_S1x32768 (ix2 (0 : Fin 1) j) = v (ix1 j)
  refine shapeCast_apply v shapeCasts_S32768_S1x32768 (ix2 (0 : Fin 1) j) (ix1 j) ?_
  rw [Shape.rowMajor_val_two, Shape.rowMajor_val_one]
  show j.val = 0 * 32768 + j.val
  omega

/-- A vector of tiles cast to one column: the column, read back as a vector, is the vector. -/
theorem col_of_cast (u : IVec S3600 32) :
    colVec (fun i => shapeCast S3600x1 u shapeCasts_S3600_S3600x1 i) = u := by
  funext k
  obtain ⟨i, rfl⟩ : ∃ i : Fin 3600, k = ix1 i := ⟨k 0, eq_ix1 k⟩
  show shapeCast S3600x1 u shapeCasts_S3600_S3600x1 (ix2 i (0 : Fin 1)) = u (ix1 i)
  refine shapeCast_apply u shapeCasts_S3600_S3600x1 (ix2 i (0 : Fin 1)) (ix1 i) ?_
  rw [Shape.rowMajor_val_two, Shape.rowMajor_val_one]
  show i.val = i.val * 1 + 0
  omega

variable (m : (ℓ : Loc nD τ sig) → Buf (Elt F) ℓ) (ρ : Dev nD → PrngReg)

/-- The kernel program's run: every weakly fair execution terminates with the result at the overlap mask of the boxes
    and tile bounds computed from the arguments, and the arguments unchanged. -/
theorem run :
    θ_run defs (onTc (τ := τ) (main (F := F))) ⟨m, fun _ => 0, ρ⟩ fun r => ∀ c : Dev nD,
      r.2.mem ((c.tc : Thread nD τ).loc main_v48)
          = Cert.Overlap.mask (xminK (pos m c) (rad m c)) (yminK (pos m c) (rad m c)) (xmaxK (pos m c) (rad m c)) (ymaxK (pos m c) (rad m c))
              leftK topK rightK bottomK
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨by
      rw [(h c).1]
      dsimp only [Xmin, Ymin, Xmax, Ymax, Lft, KVal.Top, Rgt, KVal.Bot]
      rw [V_xmin, V_ymin, V_xmax, V_ymax, V_left, V_top, V_right, V_bottom,
        row_of_cast, row_of_cast, row_of_cast, row_of_cast, col_of_cast, col_of_cast, col_of_cast, col_of_cast],
    (h c).2⟩) (run_found m ρ)

end Cert.KernelIdeal.KMask

end
-- ==== Proof.RefRun.lean ====
/-
  The reference program's run, read back.

  The reference is one straight line of host operations once its helper functions (the clamp, the floor division and
  the select inside it) are laid out at their calls. Every weakly fair execution ends with the result buffer at the
  overlap mask of the points' clamped integer boxes against the tiles' bounds, and the two arguments unchanged.

  Per point: the box is the position minus / plus the radius, clamped to the screen [0, 1280] × [0, 720] (the bounds
  arrive as integers and are converted), truncated to a signed word. Per tile t: column x = t div 45 (floor division,
  spelt as truncating division corrected where signs differ and the remainder is nonzero), row y = t - 45·x; the tile
  spans [16x, min(16(x+1), 1280)] × [16y, min(16(y+1), 720)].
-/
import proofs.«168343_j59493886984836_1_alg».proof.Proof.Gen.ReferenceIdeal
import proofs.«168343_j59493886984836_1_alg».proof.Proof.Spec
import Idealize.ShloMosaic.Lib.StableHlo.Run
import Idealize.ShloMosaic.Lib.Pipeline.Value
import Idealize.ShloMosaic.Lib.ValueIdx

noncomputable section

namespace Cert.ReferenceIdeal.RefRun

open Cert.ReferenceIdeal Cert.ReferenceIdeal.Gen Idealize.ShloMosaic Idealize.ShloMosaic.TcCoe Idealize.SL.Sem Idealize.ShloMosaic.StableHlo
open Idealize.ShloMosaic.ValueIdx

variable {F : FTy → Type} [FloatOps F]

/-! ## The pieces of the result, as pure terms of the arguments -/

/-- The x coordinates: column 0 of the positions, as a vector. -/
def colX (p : FVec F S32768x2 .f32) : FVec F S32768 .f32 :=
  shapeCast S32768 (extractStridedSlice S32768x1 ![0, 0] p slices_S32768x2_S32768x1_0_0) shapeCasts_S32768x1_S32768
/-- The y coordinates: column 1. -/
def colY (p : FVec F S32768x2 .f32) : FVec F S32768 .f32 :=
  shapeCast S32768 (extractStridedSlice S32768x1 ![0, 1] p slices_S32768x2_S32768x1_0_1) shapeCasts_S32768x1_S32768

/-- Clamp to [lo, hi], the bounds given as integer words and converted: min(hi, max(lo, x)). -/
def clampTo (lo hi : BitVec 32) (x : FVec F S32768 .f32) : FVec F S32768 .f32 :=
  minimumf (broadcastInDim S32768 ![] bcast_S_S32768 (sitofp .f32 (constantI S_ 32 hi)))
    (maximumf (broadcastInDim S32768 ![] bcast_S_S32768 (sitofp .f32 (constantI S_ 32 lo))) x)

def xminR (p : FVec F S32768x2 .f32) (r : FVec F S32768 .f32) : IVec S32768 32 := fptosi 32 (clampTo 0#32 1280#32 (subf (colX p) r))
def yminR (p : FVec F S32768x2 .f32) (r : FVec F S32768 .f32) : IVec S32768 32 := fptosi 32 (clampTo 0#32 720#32 (subf (colY p) r))
def xmaxR (p : FVec F S32768x2 .f32) (r : FVec F S32768 .f32) : IVec S32768 32 := fptosi 32 (clampTo 0#32 1280#32 (addf (colX p) r))
def ymaxR (p : FVec F S32768x2 .f32) (r : FVec F S32768 .f32) : IVec S32768 32 := fptosi 32 (clampTo 0#32 720#32 (addf (colY p) r))

/-- A word on every tile. -/
abbrev every (b : BitVec 32) : IVec S3600 32 := broadcastInDim S3600 ![] bcast_S_S3600 (constantI S_ 32 b)

/-- The tile numbers 0 … 3599. -/
abbrev tileNo : IVec S3600 32 := iotaInDim S3600 32 0

/-- The tile's column: the tile number floor-divided by 45 (45 tiles per column). -/
def tileX : IVec S3600 32 :=
  select
    (andi (cmpi .ne (signi tileNo) (broadcastInDim S3600 ![] bcast_S_S3600 (signi (constantI S_ 32 45#32))))
      (cmpi .ne (Host.remsi tileNo (every 45#32)) (every 0#32)))
    (subi (Host.divsi tileNo (every 45#32)) (every 1#32))
    (Host.divsi tileNo (every 45#32))
/-- The tile's row: the tile number less 45 times its column. -/
def tileY : IVec S3600 32 := subi tileNo (muli tileX (every 45#32))

def leftR : IVec S3600 32 := muli tileX (every 16#32)
def topR : IVec S3600 32 := muli tileY (every 16#32)
def rightR : IVec S3600 32 := minsi (muli (addi tileX (every 1#32)) (every 16#32)) (every 1280#32)
def bottomR : IVec S3600 32 := minsi (muli (addi tileY (every 1#32)) (every 16#32)) (every 720#32)

/-! ## The program as three straight lines -/

/-- The points' part, 48 operations: per box edge the column, the radius taken off or added, the clamp's six
    operations at its call, the truncation. -/
abbrev opsP : List (HloOp τ sig (Elt F)) :=
  [ unary main_arg0 main_v0 ((extractStridedSlice S32768x1 ![0, 0] · slices_S32768x2_S32768x1_0_0) : (⟨S32768x2, .f32⟩ : BufTy).Contents (Elt F) → (⟨S32768x1, .f32⟩ : BufTy).Contents (Elt F)),
    reshape main_v0 main_v1 rfl shapeCasts_S32768x1_S32768,
    binary main_v1 main_arg1 main_v2 (subf : (⟨S32768, .f32⟩ : BufTy).Contents (Elt F) → (⟨S32768, .f32⟩ : BufTy).Contents (Elt F) → (⟨S32768, .f32⟩ : BufTy).Contents (Elt F)),
    nullary main_c (constantI S_ 32 0#32),
    nullary main_c_0 (constantI S_ 32 1280#32),
    TRef.unary (.of main_c : TRef sig ⟨S_, .i32⟩) main_call0.v0 (sitofp .f32),
    TRef.unary main_call0.v0 main_call0.v1 (broadcastInDim S32768 ![] bcast_S_S32768),
    TRef.binary main_call0.v1 (.of main_v2 : TRef sig ⟨S32768, .f32⟩) main_call0.v2 maximumf,
    TRef.unary (.of main_c_0 : TRef sig ⟨S_, .i32⟩) main_call0.v3 (sitofp .f32),
    TRef.unary main_call0.v3 main_call0.v4 (broadcastInDim S32768 ![] bcast_S_S32768),
    TRef.binary main_call0.v4 main_call0.v2 main_call0.v5 minimumf,
    unary main_v3 main_v4 (fptosi 32 : (⟨S32768, .f32⟩ : BufTy).Contents (Elt F) → (⟨S32768, .i32⟩ : BufTy).Contents (Elt F)),
    unary main_arg0 main_v5 ((extractStridedSlice S32768x1 ![0, 1] · slices_S32768x2_S32768x1_0_1) : (⟨S32768x2, .f32⟩ : BufTy).Contents (Elt F) → (⟨S32768x1, .f32⟩ : BufTy).Contents (Elt F)),
    reshape main_v5 main_v6 rfl shapeCasts_S32768x1_S32768,
    binary main_v6 main_arg1 main_v7 (subf : (⟨S32768, .f32⟩ : BufTy).Contents (Elt F) → (⟨S32768, .f32⟩ : BufTy).Contents (Elt F) → (⟨S32768, .f32⟩ : BufTy).Contents (Elt F)),
    nullary main_c_1 (constantI S_ 32 0#32),
    nullary main_c_2 (constantI S_ 32 720#32),
    TRef.unary (.of main_c_1 : TRef sig ⟨S_, .i32⟩) main_call1.v0 (sitofp .f32),
    TRef.unary main_call1.v0 main_call1.v1 (broadcastInDim S32768 ![] bcast_S_S32768),
    TRef.binary main_call1.v1 (.of main_v7 : TRef sig ⟨S32768, .f32⟩) main_call1.v2 maximumf,
    TRef.unary (.of main_c_2 : TRef sig ⟨S_, .i32⟩) main_call1.v3 (sitofp .f32),
    TRef.unary main_call1.v3 main_call1.v4 (broadcastInDim S32768 ![] bcast_S_S32768),
    TRef.binary main_call1.v4 main_call1.v2 main_call1.v5 minimumf,
    unary main_v8 main_v9 (fptosi 32 : (⟨S32768, .f32⟩ : BufTy).Contents (Elt F) → (⟨S32768, .i32⟩ : BufTy).Contents (Elt F)),
    unary main_arg0 main_v10 ((extractStridedSlice S32768x1 ![0, 0] · slices_S32768x2_S32768x1_0_0) : (⟨S32768x2, .f32⟩ : BufTy).Contents (Elt F) → (⟨S32768x1, .f32⟩ : BufTy).Contents (Elt F)),
    reshape main_v10 main_v11 rfl shapeCasts_S32768x1_S32768,
    binary main_v11 main_arg1 main_v12 (addf : (⟨S32768, .f32⟩ : BufTy).Contents (Elt F) → (⟨S32768, .f32⟩ : BufTy).Contents (Elt F) → (⟨S32768, .f32⟩ : BufTy).Contents (Elt F)),
    nullary main_c_3 (constantI S_ 32 0#32),
    nullary main_c_4 (constantI S_ 32 1280#32),
    TRef.unary (.of main_c_3 : TRef sig ⟨S_, .i32⟩) main_call2.v0 (sitofp .f32),
    TRef.unary main_call2.v0 main_call2.v1 (broadcastInDim S32768 ![] bcast_S_S32768),
    TRef.binary main_call2.v1 (.of main_v12 : TRef sig ⟨S32768, .f32⟩) main_call2.v2 maximumf,
    TRef.unary (.of main_c_4 : TRef sig ⟨S_, .i32⟩) main_call2.v3 (sitofp .f32),
    TRef.unary main_call2.v3 main_call2.v4 (broadcastInDim S32768 ![] bcast_S_S32768),
    TRef.binary main_call2.v4 main_call2.v2 main_call2.v5 minimumf,
    unary main_v13 main_v14 (fptosi 32 : (⟨S32768, .f32⟩ : BufTy).Contents (Elt F) → (⟨S32768, .i32⟩ : BufTy).Contents (Elt F)),
    unary main_arg0 main_v15 ((extractStridedSlice S32768x1 ![0, 1] · slices_S32768x2_S32768x1_0_1) : (⟨S32768x2, .f32⟩ : BufTy).Contents (Elt F) → (⟨S32768x1, .f32⟩ : BufTy).Contents (Elt F)),
    reshape main_v15 main_v16 rfl shapeCasts_S32768x1_S32768,
    binary main_v16 main_arg1 main_v17 (addf : (⟨S32768, .f32⟩ : BufTy).Contents (Elt F) → (⟨S32768, .f32⟩ : BufTy).Contents (Elt F) → (⟨S32768, .f32⟩ : BufTy).Contents (Elt F)),
    nullary main_c_5 (constantI S_ 32 0#32),
    nullary main_c_6 (constantI S_ 32 720#32),
    TRef.unary (.of main_c_5 : TRef sig ⟨S_, .i32⟩) main_call3.v0 (sitofp .f32),
    TRef.unary main_call3.v0 main_call3.v1 (broadcastInDim S32768 ![] bcast_S_S32768),
    TRef.binary main_call3.v1 (.of main_v17 : TRef sig ⟨S32768, .f32⟩) main_call3.v2 maximumf,
    TRef.unary (.of main_c_6 : TRef sig ⟨S_, .i32⟩) main_call3.v3 (sitofp .f32),
    TRef.unary main_call3.v3 main_call3.v4 (broadcastInDim S32768 ![] bcast_S_S32768),
    TRef.binary main_call3.v4 main_call3.v2 main_call3.v5 minimumf,
    unary main_v18 main_v19 (fptosi 32 : (⟨S32768, .f32⟩ : BufTy).Contents (Elt F) → (⟨S32768, .i32⟩ : BufTy).Contents (Elt F)) ]

/-- The tiles' part, 48 operations: the tile numbers, the floor division's sixteen operations and the select inside
    it at their calls, the row, the four bounds, and last the first edge laid out as one row. -/
abbrev opsT : List (HloOp τ sig (Elt F)) :=
  [ nullary main_v20 (iotaInDim S3600 32 0),
    nullary main_c_7 (constantI S_ 32 45#32),
    TRef.unary (.of main_c_7 : TRef sig ⟨S_, .i32⟩) main_call4.v0 id,
    TRef.unary main_call4.v0 main_call4.v1 (broadcastInDim S3600 ![] bcast_S_S3600),
    TRef.binary (.of main_v20 : TRef sig ⟨S3600, .i32⟩) main_call4.v1 main_call4.v2 Host.divsi,
    TRef.unary (.of main_v20 : TRef sig ⟨S3600, .i32⟩) main_call4.v3 signi,
    TRef.unary main_call4.v0 main_call4.v4 signi,
    TRef.unary main_call4.v4 main_call4.v5 (broadcastInDim S3600 ![] bcast_S_S3600),
    TRef.binary main_call4.v3 main_call4.v5 main_call4.v6 (cmpi .ne),
    TRef.unary main_call4.v0 main_call4.v7 (broadcastInDim S3600 ![] bcast_S_S3600),
    TRef.binary (.of main_v20 : TRef sig ⟨S3600, .i32⟩) main_call4.v7 main_call4.v8 Host.remsi,
    TRef.nullary main_call4.c (constantI S_ 32 0#32),
    TRef.unary main_call4.c main_call4.v9 (broadcastInDim S3600 ![] bcast_S_S3600),
    TRef.binary main_call4.v8 main_call4.v9 main_call4.v10 (cmpi .ne),
    TRef.binary main_call4.v6 main_call4.v10 main_call4.v11 andi,
    TRef.nullary main_call4.c_0 (constantI S_ 32 1#32),
    TRef.unary main_call4.c_0 main_call4.v12 (broadcastInDim S3600 ![] bcast_S_S3600),
    TRef.binary main_call4.v2 main_call4.v12 main_call4.v13 subi,
    TRef.ternary main_call4.v11 main_call4.v13 main_call4.v2 main_call4.call0.v0 select,
    nullary main_c_8 (constantI S_ 32 45#32),
    unary main_c_8 main_v22 (broadcastInDim S3600 ![] bcast_S_S3600 : (⟨S_, .i32⟩ : BufTy).Contents (Elt F) → (⟨S3600, .i32⟩ : BufTy).Contents (Elt F)),
    binary main_v21 main_v22 main_v23 (muli : (⟨S3600, .i32⟩ : BufTy).Contents (Elt F) → (⟨S3600, .i32⟩ : BufTy).Contents (Elt F) → (⟨S3600, .i32⟩ : BufTy).Contents (Elt F)),
    binary main_v20 main_v23 main_v24 (subi : (⟨S3600, .i32⟩ : BufTy).Contents (Elt F) → (⟨S3600, .i32⟩ : BufTy).Contents (Elt F) → (⟨S3600, .i32⟩ : BufTy).Contents (Elt F)),
    nullary main_c_9 (constantI S_ 32 16#32),
    unary main_c_9 main_v25 (broadcastInDim S3600 ![] bcast_S_S3600 : (⟨S_, .i32⟩ : BufTy).Contents (Elt F) → (⟨S3600, .i32⟩ : BufTy).Contents (Elt F)),
    binary main_v21 main_v25 main_v26 (muli : (⟨S3600, .i32⟩ : BufTy).Contents (Elt F) → (⟨S3600, .i32⟩ : BufTy).Contents (Elt F) → (⟨S3600, .i32⟩ : BufTy).Contents (Elt F)),
    nullary main_c_10 (constantI S_ 32 16#32),
    unary main_c_10 main_v27 (broadcastInDim S3600 ![] bcast_S_S3600 : (⟨S_, .i32⟩ : BufTy).Contents (Elt F) → (⟨S3600, .i32⟩ : BufTy).Contents (Elt F)),
    binary main_v24 main_v27 main_v28 (muli : (⟨S3600, .i32⟩ : BufTy).Contents (Elt F) → (⟨S3600, .i32⟩ : BufTy).Contents (Elt F) → (⟨S3600, .i32⟩ : BufTy).Contents (Elt F)),
    nullary main_c_11 (constantI S_ 32 1#32),
    unary main_c_11 main_v29 (broadcastInDim S3600 ![] bcast_S_S3600 : (⟨S_, .i32⟩ : BufTy).Contents (Elt F) → (⟨S3600, .i32⟩ : BufTy).Contents (Elt F)),
    binary main_v21 main_v29 main_v30 (addi : (⟨S3600, .i32⟩ : BufTy).Contents (Elt F) → (⟨S3600, .i32⟩ : BufTy).Contents (Elt F) → (⟨S3600, .i32⟩ : BufTy).Contents (Elt F)),
    nullary main_c_12 (constantI S_ 32 16#32),
    unary main_c_12 main_v31 (broadcastInDim S3600 ![] bcast_S_S3600 : (⟨S_, .i32⟩ : BufTy).Contents (Elt F) → (⟨S3600, .i32⟩ : BufTy).Contents (Elt F)),
    binary main_v30 main_v31 main_v32 (muli : (⟨S3600, .i32⟩ : BufTy).Contents (Elt F) → (⟨S3600, .i32⟩ : BufTy).Contents (Elt F) → (⟨S3600, .i32⟩ : BufTy).Contents (Elt F)),
    nullary main_c_13 (constantI S_ 32 1280#32),
    unary main_c_13 main_v33 (broadcastInDim S3600 ![] bcast_S_S3600 : (⟨S_, .i32⟩ : BufTy).Contents (Elt F) → (⟨S3600, .i32⟩ : BufTy).Contents (Elt F)),
    binary main_v32 main_v33 main_v34 (minsi : (⟨S3600, .i32⟩ : BufTy).Contents (Elt F) → (⟨S3600, .i32⟩ : BufTy).Contents (Elt F) → (⟨S3600, .i32⟩ : BufTy).Contents (Elt F)),
    nullary main_c_14 (constantI S_ 32 1#32),
    unary main_c_14 main_v35 (broadcastInDim S3600 ![] bcast_S_S3600 : (⟨S_, .i32⟩ : BufTy).Contents (Elt F) → (⟨S3600, .i32⟩ : BufTy).Contents (Elt F)),
    binary main_v24 main_v35 main_v36 (addi : (⟨S3600, .i32⟩ : BufTy).Contents (Elt F) → (⟨S3600, .i32⟩ : BufTy).Contents (Elt F) → (⟨S3600, .i32⟩ : BufTy).Contents (Elt F)),
    nullary main_c_15 (constantI S_ 32 16#32),
    unary main_c_15 main_v37 (broadcastInDim S3600 ![] bcast_S_S3600 : (⟨S_, .i32⟩ : BufTy).Contents (Elt F) → (⟨S3600, .i32⟩ : BufTy).Contents (Elt F)),
    binary main_v36 main_v37 main_v38 (muli : (⟨S3600, .i32⟩ : BufTy).Contents (Elt F) → (⟨S3600, .i32⟩ : BufTy).Contents (Elt F) → (⟨S3600, .i32⟩ : BufTy).Contents (Elt F)),
    nullary main_c_16 (constantI S_ 32 720#32),
    unary main_c_16 main_v39 (broadcastInDim S3600 ![] bcast_S_S3600 : (⟨S_, .i32⟩ : BufTy).Contents (Elt F) → (⟨S3600, .i32⟩ : BufTy).Contents (Elt F)),
    binary main_v38 main_v39 main_v40 (minsi : (⟨S3600, .i32⟩ : BufTy).Contents (Elt F) → (⟨S3600, .i32⟩ : BufTy).Contents (Elt F) → (⟨S3600, .i32⟩ : BufTy).Contents (Elt F)),
    unary main_v4 main_v41 (broadcastInDim S1x32768 ![1] bcast_S32768_S1x32768_1 : (⟨S32768, .i32⟩ : BufTy).Contents (Elt F) → (⟨S1x32768, .i32⟩ : BufTy).Contents (Elt F)) ]

/-- The mask's part, 22 operations: each edge laid over the grid, the two maxima and two minima, the two
    comparisons and their conjunction. -/
abbrev opsM : List (HloOp τ sig (Elt F)) :=
  [ unary main_v26 main_v42 (broadcastInDim S3600x1 ![0] bcast_S3600_S3600x1_0 : (⟨S3600, .i32⟩ : BufTy).Contents (Elt F) → (⟨S3600x1, .i32⟩ : BufTy).Contents (Elt F)),
    unary main_v41 main_v43 (broadcastInDim S3600x32768 ![0, 1] bcast_S1x32768_S3600x32768_0_1 : (⟨S1x32768, .i32⟩ : BufTy).Contents (Elt F) → (⟨S3600x32768, .i32⟩ : BufTy).Contents (Elt F)),
    unary main_v42 main_v44 (broadcastInDim S3600x32768 ![0, 1] bcast_S3600x1_S3600x32768_0_1 : (⟨S3600x1, .i32⟩ : BufTy).Contents (Elt F) → (⟨S3600x32768, .i32⟩ : BufTy).Contents (Elt F)),
    binary main_v43 main_v44 main_v45 (maxsi : (⟨S3600x32768, .i32⟩ : BufTy).Contents (Elt F) → (⟨S3600x32768, .i32⟩ : BufTy).Contents (Elt F) → (⟨S3600x32768, .i32⟩ : BufTy).Contents (Elt F)),
    unary main_v9 main_v46 (broadcastInDim S1x32768 ![1] bcast_S32768_S1x32768_1 : (⟨S32768, .i32⟩ : BufTy).Contents (Elt F) → (⟨S1x32768, .i32⟩ : BufTy).Contents (Elt F)),
    unary main_v28 main_v47 (broadcastInDim S3600x1 ![0] bcast_S3600_S3600x1_0 : (⟨S3600, .i32⟩ : BufTy).Contents (Elt F) → (⟨S3600x1, .i32⟩ : BufTy).Contents (Elt F)),
    unary main_v46 main_v48 (broadcastInDim S3600x32768 ![0, 1] bcast_S1x32768_S3600x32768_0_1 : (⟨S1x32768, .i32⟩ : BufTy).Contents (Elt F) → (⟨S3600x32768, .i32⟩ : BufTy).Contents (Elt F)),
    unary main_v47 main_v49 (broadcastInDim S3600x32768 ![0, 1] bcast_S3600x1_S3600x32768_0_1 : (⟨S3600x1, .i32⟩ : BufTy).Contents (Elt F) → (⟨S3600x32768, .i32⟩ : BufTy).Contents (Elt F)),
    binary main_v48 main_v49 main_v50 (maxsi : (⟨S3600x32768, .i32⟩ : BufTy).Contents (Elt F) → (⟨S3600x32768, .i32⟩ : BufTy).Contents (Elt F) → (⟨S3600x32768, .i32⟩ : BufTy).Contents (Elt F)),
    unary main_v14 main_v51 (broadcastInDim S1x32768 ![1] bcast_S32768_S1x32768_1 : (⟨S32768, .i32⟩ : BufTy).Contents (Elt F) → (⟨S1x32768, .i32⟩ : BufTy).Contents (Elt F)),
    unary main_v34 main_v52 (broadcastInDim S3600x1 ![0] bcast_S3600_S3600x1_0 : (⟨S3600, .i32⟩ : BufTy).Contents (Elt F) → (⟨S3600x1, .i32⟩ : BufTy).Contents (Elt F)),
    unary main_v51 main_v53 (broadcastInDim S3600x32768 ![0, 1] bcast_S1x32768_S3600x32768_0_1 : (⟨S1x32768, .i32⟩ : BufTy).Contents (Elt F) → (⟨S3600x32768, .i32⟩ : BufTy).Contents (Elt F)),
    unary main_v52 main_v54 (broadcastInDim S3600x32768 ![0, 1] bcast_S3600x1_S3600x32768_0_1 : (⟨S3600x1, .i32⟩ : BufTy).Contents (Elt F) → (⟨S3600x32768, .i32⟩ : BufTy).Contents (Elt F)),
    binary main_v53 main_v54 main_v55 (minsi : (⟨S3600x32768, .i32⟩ : BufTy).Contents (Elt F) → (⟨S3600x32768, .i32⟩ : BufTy).Contents (Elt F) → (⟨S3600x32768, .i32⟩ : BufTy).Contents (Elt F)),
    unary main_v19 main_v56 (broadcastInDim S1x32768 ![1] bcast_S32768_S1x32768_1 : (⟨S32768, .i32⟩ : BufTy).Contents (Elt F) → (⟨S1x32768, .i32⟩ : BufTy).Contents (Elt F)),
    unary main_v40 main_v57 (broadcastInDim S3600x1 ![0] bcast_S3600_S3600x1_0 : (⟨S3600, .i32⟩ : BufTy).Contents (Elt F) → (⟨S3600x1, .i32⟩ : BufTy).Contents (Elt F)),
    unary main_v56 main_v58 (broadcastInDim S3600x32768 ![0, 1] bcast_S1x32768_S3600x32768_0_1 : (⟨S1x32768, .i32⟩ : BufTy).Contents (Elt F) → (⟨S3600x32768, .i32⟩ : BufTy).Contents (Elt F)),
    unary main_v57 main_v59 (broadcastInDim S3600x32768 ![0, 1] bcast_S3600x1_S3600x32768_0_1 : (⟨S3600x1, .i32⟩ : BufTy).Contents (Elt F) → (⟨S3600x32768, .i32⟩ : BufTy).Contents (Elt F)),
    binary main_v58 main_v59 main_v60 (minsi : (⟨S3600x32768, .i32⟩ : BufTy).Contents (Elt F) → (⟨S3600x32768, .i32⟩ : BufTy).Contents (Elt F) → (⟨S3600x32768, .i32⟩ : BufTy).Contents (Elt F)),
    binary main_v55 main_v45 main_v61 (cmpi .sgt : (⟨S3600x32768, .i32⟩ : BufTy).Contents (Elt F) → (⟨S3600x32768, .i32⟩ : BufTy).Contents (Elt F) → (⟨S3600x32768, .i1⟩ : BufTy).Contents (Elt F)),
    binary main_v60 main_v50 main_v62 (cmpi .sgt : (⟨S3600x32768, .i32⟩ : BufTy).Contents (Elt F) → (⟨S3600x32768, .i32⟩ : BufTy).Contents (Elt F) → (⟨S3600x32768, .i1⟩ : BufTy).Contents (Elt F)),
    binary main_v61 main_v62 main_v63 (andi : (⟨S3600x32768, .i1⟩ : BufTy).Contents (Elt F) → (⟨S3600x32768, .i1⟩ : BufTy).Contents (Elt F) → (⟨S3600x32768, .i1⟩ : BufTy).Contents (Elt F)) ]

/-! ## @main is those lines, one after the other -/

/-- The contents after two lines run one after the other. -/
theorem after_app : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_app l₁ l₂]

-- ninety-six steps compared one by one, the helper functions' bodies opened at their five calls
set_option maxRecDepth 8192 in
set_option maxHeartbeats 4000000 in
/-- The first window is the points' line then the tiles' line: with the clamp, the floor division and its select
    opened at their calls, both sides are the same chain of steps. -/
theorem part0_eq (c : Dev nD) : main_part0 (F := F) c = seq (opsP ++ opsT) := rfl

/-- The second window is the mask's line. -/
theorem part1_eq (c : Dev nD) : main_part1 (F := F) c = seq opsM := rfl

/-- @main is the three lines in order. -/
theorem main_eq (c : Dev nD) : main (F := F) c = seq ((opsP ++ opsT) ++ opsM) := by
  rw [seq_append, ← part0_eq c, ← part1_eq c]
  rfl

/-! ## What the run asks of the lines -/

theorem scopedRefs_eq : (Finset.univ.filter fun b : Ref sig .tc => b.isScoped) = ∅ := by decide
theorem scopedSems_eq : (Finset.univ.filter fun sm : SemLoc sig => sm.isScoped .tc) = ∅ := by decide

theorem opsP_sub : (opsP : List (HloOp τ sig (Elt F))).Forall fun op => op.bufs ⊆ tcRefs τ sig :=
  ⟨unary_bufs_sub .., reshape_bufs_sub .., binary_bufs_sub .., nullary_bufs_sub .., nullary_bufs_sub ..,
    unary_bufs_sub .., unary_bufs_sub .., binary_bufs_sub .., unary_bufs_sub .., unary_bufs_sub .., binary_bufs_sub .., unary_bufs_sub ..,
    unary_bufs_sub .., reshape_bufs_sub .., binary_bufs_sub .., nullary_bufs_sub .., nullary_bufs_sub ..,
    unary_bufs_sub .., unary_bufs_sub .., binary_bufs_sub .., unary_bufs_sub .., unary_bufs_sub .., binary_bufs_sub .., unary_bufs_sub ..,
    unary_bufs_sub .., reshape_bufs_sub .., binary_bufs_sub .., nullary_bufs_sub .., nullary_bufs_sub ..,
    unary_bufs_sub .., unary_bufs_sub .., binary_bufs_sub .., unary_bufs_sub .., unary_bufs_sub .., binary_bufs_sub .., unary_bufs_sub ..,
    unary_bufs_sub .., reshape_bufs_sub .., binary_bufs_sub .., nullary_bufs_sub .., nullary_bufs_sub ..,
    unary_bufs_sub .., unary_bufs_sub .., binary_bufs_sub .., unary_bufs_sub .., unary_bufs_sub .., binary_bufs_sub .., unary_bufs_sub ..⟩

theorem opsT_sub : (opsT : List (HloOp τ sig (Elt F))).Forall fun op => op.bufs ⊆ tcRefs τ sig :=
  ⟨nullary_bufs_sub .., nullary_bufs_sub ..,
    unary_bufs_sub .., unary_bufs_sub .., binary_bufs_sub .., unary_bufs_sub .., unary_bufs_sub .., unary_bufs_sub .., binary_bufs_sub ..,
    unary_bufs_sub .., binary_bufs_sub .., nullary_bufs_sub .., unary_bufs_sub .., binary_bufs_sub .., binary_bufs_sub ..,
    nullary_bufs_sub .., unary_bufs_sub .., binary_bufs_sub .., ternary_bufs_sub ..,
    nullary_bufs_sub .., unary_bufs_sub .., binary_bufs_sub .., binary_bufs_sub ..,
    nullary_bufs_sub .., unary_bufs_sub .., binary_bufs_sub ..,
    nullary_bufs_sub .., unary_bufs_sub .., binary_bufs_sub ..,
    nullary_bufs_sub .., unary_bufs_sub .., binary_bufs_sub ..,
    nullary_bufs_sub .., unary_bufs_sub .., binary_bufs_sub ..,
    nullary_bufs_sub .., unary_bufs_sub .., binary_bufs_sub ..,
    nullary_bufs_sub .., unary_bufs_sub .., binary_bufs_sub ..,
    nullary_bufs_sub .., unary_bufs_sub .., binary_bufs_sub ..,
    nullary_bufs_sub .., unary_bufs_sub .., binary_bufs_sub ..,
    unary_bufs_sub ..⟩

theorem opsM_sub : (opsM : List (HloOp τ sig (Elt F))).Forall fun op => op.bufs ⊆ tcRefs τ sig :=
  ⟨unary_bufs_sub .., unary_bufs_sub .., unary_bufs_sub .., binary_bufs_sub ..,
    unary_bufs_sub .., unary_bufs_sub .., unary_bufs_sub .., unary_bufs_sub .., binary_bufs_sub ..,
    unary_bufs_sub .., unary_bufs_sub .., unary_bufs_sub .., unary_bufs_sub .., binary_bufs_sub ..,
    unary_bufs_sub .., unary_bufs_sub .., unary_bufs_sub .., unary_bufs_sub .., binary_bufs_sub ..,
    binary_bufs_sub .., binary_bufs_sub .., binary_bufs_sub ..⟩

theorem ops_sub : (((opsP ++ opsT) ++ opsM : List (HloOp τ sig (Elt F)))).Forall fun op => op.bufs ⊆ tcRefs τ sig :=
  List.forall_append.mpr ⟨List.forall_append.mpr ⟨opsP_sub, opsT_sub⟩, opsM_sub⟩

/-- Every operation of a line determines its results: none of them allocates. -/
theorem opsP_fresh : ∀ op ∈ (opsP : List (HloOp τ sig (Elt F))), op.fresh = ∅ := by
  intro _ h; (repeat (cases h with | head => rfl | tail _ h => ?_)); exact nomatch h
theorem opsT_fresh : ∀ op ∈ (opsT : List (HloOp τ sig (Elt F))), op.fresh = ∅ := by
  intro _ h; (repeat (cases h with | head => rfl | tail _ h => ?_)); exact nomatch h
theorem opsM_fresh : ∀ op ∈ (opsM : List (HloOp τ sig (Elt F))), op.fresh = ∅ := by
  intro _ h; (repeat (cases h with | head => rfl | tail _ h => ?_)); exact nomatch h
theorem ops_fresh : ∀ op ∈ ((opsP ++ opsT) ++ opsM : List (HloOp τ sig (Elt F))), op.fresh = ∅ := by
  intro op h
  rcases List.mem_append.mp h with h | h
  · rcases List.mem_append.mp h with h | h
    · exact opsP_fresh op h
    · exact opsT_fresh op h
  · exact opsM_fresh op h

/-! ## The grid's two layouts, read at an index -/

/-- A points-vector laid along every row of the grid. -/
def alongRows (v : IVec S32768 32) : IVec S3600x32768 32 :=
  broadcastInDim S3600x32768 ![0, 1] bcast_S1x32768_S3600x32768_0_1 (broadcastInDim S1x32768 ![1] bcast_S32768_S1x32768_1 v)

/-- A tiles-vector laid along every column of the grid. -/
def alongCols (u : IVec S3600 32) : IVec S3600x32768 32 :=
  broadcastInDim S3600x32768 ![0, 1] bcast_S3600x1_S3600x32768_0_1 (broadcastInDim S3600x1 ![0] bcast_S3600_S3600x1_0 u)

/-- Entry (i, j) of a points-vector laid along the rows is the vector's entry j: the one row is read at column j,
    and the row at j is the vector at j. -/
theorem alongRows_apply (v : IVec S32768 32) (i : Fin 3600) (j : Fin 32768) : alongRows v (ix2 i j) = v (ix1 j) := by
  unfold alongRows
  rw [broadcastInDim_apply ![0, 1] bcast_S1x32768_S3600x32768_0_1 _ (ix2 i j) (ix2 (0 : Fin 1) j)
    (by intro a; match a with | ⟨0, _⟩ => rfl | ⟨1, _⟩ => rfl)]
  exact broadcastInDim_apply ![1] bcast_S32768_S1x32768_1 v (ix2 (0 : Fin 1) j) (ix1 j)
    (by intro a; match a with | ⟨0, _⟩ => rfl)

/-- Entry (i, j) of a tiles-vector laid along the columns is the vector's entry i. -/
theorem alongCols_apply (u : IVec S3600 32) (i : Fin 3600) (j : Fin 32768) : alongCols u (ix2 i j) = u (ix1 i) := by
  unfold alongCols
  rw [broadcastInDim_apply ![0, 1] bcast_S3600x1_S3600x32768_0_1 _ (ix2 i j) (ix2 i (0 : Fin 1))
    (by intro a; match a with | ⟨0, _⟩ => rfl | ⟨1, _⟩ => rfl)]
  exact broadcastInDim_apply ![0] bcast_S3600_S3600x1_0 u (ix2 i (0 : Fin 1)) (ix1 i)
    (by intro a; match a with | ⟨0, _⟩ => rfl)

/-- The result as the program composes it, from the four box edges and the four tile bounds: on both axes the smaller
    of the upper ends exceeds the larger of the lower ends. -/
def maskTerm (xmin ymin xmax ymax : IVec S32768 32) (left top right bottom : IVec S3600 32) : IVec S3600x32768 1 :=
  andi (cmpi .sgt (minsi (alongRows xmax) (alongCols right)) (maxsi (alongRows xmin) (alongCols left)))
    (cmpi .sgt (minsi (alongRows ymax) (alongCols bottom)) (maxsi (alongRows ymin) (alongCols top)))

/-- That term is the overlap mask, entry by entry: the comparisons, minima and maxima act entry by entry, and each
    layout reads its vector at the point's or the tile's own index. -/
theorem maskTerm_eq (xmin ymin xmax ymax : IVec S32768 32) (left top right bottom : IVec S3600 32) :
    maskTerm xmin ymin xmax ymax left top right bottom = Cert.Overlap.mask xmin ymin xmax ymax left top right bottom := by
  funext ij
  obtain ⟨i, j, rfl⟩ : ∃ (i : Fin 3600) (j : Fin 32768), ij = ix2 i j := ⟨ij 0, ij 1, eq_ix2 ij⟩
  rw [Cert.Overlap.mask_apply]
  show IntOp.andi
      (IntOp.cmpi .sgt (IntOp.minsi (alongRows xmax (ix2 i j)) (alongCols right (ix2 i j)))
        (IntOp.maxsi (alongRows xmin (ix2 i j)) (alongCols left (ix2 i j))))
      (IntOp.cmpi .sgt (IntOp.minsi (alongRows ymax (ix2 i j)) (alongCols bottom (ix2 i j)))
        (IntOp.maxsi (alongRows ymin (ix2 i j)) (alongCols top (ix2 i j)))) = _
  rw [alongRows_apply, alongRows_apply, alongRows_apply, alongRows_apply,
    alongCols_apply, alongCols_apply, alongCols_apply, alongCols_apply]
  rfl

/-! ## What each line leaves in the buffers the next one reads -/

section Reads
variable (V : Valuation τ sig (Elt F))

/-- The points' line leaves the four box edges. -/
theorem readP_v4 : after opsP V (Proc.devRef .tc main_v4)
    = xminR (V (Proc.devRef .tc main_arg0)) (V (Proc.devRef .tc main_arg1)) := by
  after_results_simp <;> (try simp only [TRef.ofBuf, TRef.toBuf, cast_eq]) <;> rfl
theorem readP_v9 : after opsP V (Proc.devRef .tc main_v9)
    = yminR (V (Proc.devRef .tc main_arg0)) (V (Proc.devRef .tc main_arg1)) := by
  after_results_simp <;> (try simp only [TRef.ofBuf, TRef.toBuf, cast_eq]) <;> rfl
theorem readP_v14 : after opsP V (Proc.devRef .tc main_v14)
    = xmaxR (V (Proc.devRef .tc main_arg0)) (V (Proc.devRef .tc main_arg1)) := by
  after_results_simp <;> (try simp only [TRef.ofBuf, TRef.toBuf, cast_eq]) <;> rfl
theorem readP_v19 : after opsP V (Proc.devRef .tc main_v19)
    = ymaxR (V (Proc.devRef .tc main_arg0)) (V (Proc.devRef .tc main_arg1)) := by
  after_results_simp <;> (try simp only [TRef.ofBuf, TRef.toBuf, cast_eq]) <;> rfl
/-- It writes neither argument. -/
theorem readP_arg0 : after opsP V (Proc.devRef .tc main_arg0) = V (Proc.devRef .tc main_arg0) := by
  after_results_simp
theorem readP_arg1 : after opsP V (Proc.devRef .tc main_arg1) = V (Proc.devRef .tc main_arg1) := by
  after_results_simp

/-- The tiles' line leaves the four tile bounds, whatever was there before ... -/
theorem readT_v26 : after opsT V (Proc.devRef .tc main_v26) = leftR := by
  after_results_simp <;> (try simp only [TRef.ofBuf, TRef.toBuf, cast_eq]) <;> rfl
theorem readT_v28 : after opsT V (Proc.devRef .tc main_v28) = topR := by
  after_results_simp <;> (try simp only [TRef.ofBuf, TRef.toBuf, cast_eq]) <;> rfl
theorem readT_v34 : after opsT V (Proc.devRef .tc main_v34) = rightR := by
  after_results_simp <;> (try simp only [TRef.ofBuf, TRef.toBuf, cast_eq]) <;> rfl
theorem readT_v40 : after opsT V (Proc.devRef .tc main_v40) = bottomR := by
  after_results_simp <;> (try simp only [TRef.ofBuf, TRef.toBuf, cast_eq]) <;> rfl
/-- ... the first box edge as one row ... -/
theorem readT_v41 : after opsT V (Proc.devRef .tc main_v41)
    = broadcastInDim S1x32768 ![1] bcast_S32768_S1x32768_1 (V (Proc.devRef .tc main_v4)) := by
  after_results_simp
/-- ... and the other three box edges and the arguments as they were. -/
theorem readT_v9 : after opsT V (Proc.devRef .tc main_v9) = V (Proc.devRef .tc main_v9) := by
  after_results_simp
theorem readT_v14 : after opsT V (Proc.devRef .tc main_v14) = V (Proc.devRef .tc main_v14) := by
  after_results_simp
theorem readT_v19 : after opsT V (Proc.devRef .tc main_v19) = V (Proc.devRef .tc main_v19) := by
  after_results_simp
theorem readT_arg0 : after opsT V (Proc.devRef .tc main_arg0) = V (Proc.devRef .tc main_arg0) := by
  after_results_simp
theorem readT_arg1 : after opsT V (Proc.devRef .tc main_arg1) = V (Proc.devRef .tc main_arg1) := by
  after_results_simp

/-- The mask's line leaves the composed term of the eight vectors it reads (the first box edge already one row). -/
theorem readM_v63 : after opsM V (Proc.devRef .tc main_v63)
    = andi
        (cmpi .sgt (minsi (alongRows (V (Proc.devRef .tc main_v14))) (alongCols (V (Proc.devRef .tc main_v34))))
          (maxsi (broadcastInDim S3600x32768 ![0, 1] bcast_S1x32768_S3600x32768_0_1 (V (Proc.devRef .tc main_v41)))
            (alongCols (V (Proc.devRef .tc main_v26)))))
        (cmpi .sgt (minsi (alongRows (V (Proc.devRef .tc main_v19))) (alongCols (V (Proc.devRef .tc main_v40))))
          (maxsi (alongRows (V (Proc.devRef .tc main_v9))) (alongCols (V (Proc.devRef .tc main_v28))))) := by
  after_results_simp <;> rfl
theorem readM_arg0 : after opsM V (Proc.devRef .tc main_arg0) = V (Proc.devRef .tc main_arg0) := by
  after_results_simp
theorem readM_arg1 : after opsM V (Proc.devRef .tc main_arg1) = V (Proc.devRef .tc main_arg1) := by
  after_results_simp

/-- The three lines in order leave the result buffer at the composed term of the box edges and the tile bounds. -/
theorem read_out : after ((opsP ++ opsT) ++ opsM) V (Proc.devRef .tc main_v63)
    = maskTerm (xminR (V (Proc.devRef .tc main_arg0)) (V (Proc.devRef .tc main_arg1)))
        (yminR (V (Proc.devRef .tc main_arg0)) (V (Proc.devRef .tc main_arg1)))
        (xmaxR (V (Proc.devRef .tc main_arg0)) (V (Proc.devRef .tc main_arg1)))
        (ymaxR (V (Proc.devRef .tc main_arg0)) (V (Proc.devRef .tc main_arg1)))
        leftR topR rightR bottomR := by
  rw [after_app, after_app, readM_v63, readT_v41, readT_v9, readT_v14, readT_v19, readT_v26, readT_v28, readT_v34, readT_v40,
    readP_v4, readP_v9, readP_v14, readP_v19]
  rfl
theorem read_arg0 : after ((opsP ++ opsT) ++ opsM) V (Proc.devRef .tc main_arg0) = V (Proc.devRef .tc main_arg0) := by
  rw [after_app, after_app, readM_arg0, readT_arg0, readP_arg0]
theorem read_arg1 : after ((opsP ++ opsT) ++ opsM) V (Proc.devRef .tc main_arg1) = V (Proc.devRef .tc main_arg1) := by
  rw [after_app, after_app, readM_arg1, readT_arg1, readP_arg1]

end Reads

/-! ## The run -/

/-- On every device, for any float values, from any memory with zero counters: every weakly fair execution of the
    reference terminates with the result at the overlap mask of the boxes and the tiles, the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v63)
          = Cert.Overlap.mask
              (xminR (m ((c.tc : Thread nD τ).loc main_arg0)) (m ((c.tc : Thread nD τ).loc main_arg1)))
              (yminR (m ((c.tc : Thread nD τ).loc main_arg0)) (m ((c.tc : Thread nD τ).loc main_arg1)))
              (xmaxR (m ((c.tc : Thread nD τ).loc main_arg0)) (m ((c.tc : Thread nD τ).loc main_arg1)))
              (ymaxR (m ((c.tc : Thread nD τ).loc main_arg0)) (m ((c.tc : Thread nD τ).loc main_arg1)))
              leftR topR rightR bottomR
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
      ⟨(h c main_v63).trans ((read_out (launchContents m c)).trans (maskTerm_eq _ _ _ _ _ _ _ _)),
        (h c main_arg0).trans (read_arg0 (launchContents m c)),
        (h c main_arg1).trans (read_arg1 (launchContents m c))⟩)
    (run_seq scopedRefs_eq scopedSems_eq defs main (fun _ => (opsP ++ opsT) ++ opsM) main_eq (fun _ => ops_sub) m ρ
      (fun _ => ops_fresh))

end Cert.ReferenceIdeal.RefRun

end
-- ==== Proof.Bridge.lean ====
/-
  The two programs compute one mask.

  Both spell the same arithmetic. The boxes differ only in how the screen bounds 0, 1280 and 720 arrive: as float
  constants in the kernel's program, as integers converted to float in the reference; at the ideal values each pair is
  one real number, so the clamps agree, and with them the four truncated box coordinates. The tile bounds are the same
  integer arithmetic on both sides, word for word.
-/
import proofs.«168343_j59493886984836_1_alg».proof.Proof.KernelHost
import proofs.«168343_j59493886984836_1_alg».proof.Proof.RefRun

noncomputable section

namespace Cert.Bridge

open Idealize.ShloMosaic Idealize.ShloMosaic.ValueIdx
open Cert.KernelIdeal.KHost Cert.ReferenceIdeal.RefRun

/-- Clamping to the screen's width: the float constants are the converted integers. -/
theorem clamp_w (x : FVec Ideal Cert.KernelIdeal.S32768 .f32) :
    clampF (F := Ideal) 0x00000000#32 0x44A00000#32 x = clampTo (F := Ideal) 0#32 1280#32 x := by
  funext i
  show FloatOps.minimumf (FloatOps.ofBits (F := Ideal) .f32 0x44A00000#32) (FloatOps.maximumf (FloatOps.ofBits (F := Ideal) .f32 0x00000000#32) (x i))
    = FloatOps.minimumf (FloatOps.sitofp (F := Ideal) .f32 (1280#32 : BitVec 32)) (FloatOps.maximumf (FloatOps.sitofp (F := Ideal) .f32 (0#32 : BitVec 32)) (x i))
  rw [Cert.Overlap.hi_1280, Cert.Overlap.lo_0]

/-- Clamping to the screen's height. -/
theorem clamp_h (x : FVec Ideal Cert.KernelIdeal.S32768 .f32) :
    clampF (F := Ideal) 0x00000000#32 0x44340000#32 x = clampTo (F := Ideal) 0#32 720#32 x := by
  funext i
  show FloatOps.minimumf (FloatOps.ofBits (F := Ideal) .f32 0x44340000#32) (FloatOps.maximumf (FloatOps.ofBits (F := Ideal) .f32 0x00000000#32) (x i))
    = FloatOps.minimumf (FloatOps.sitofp (F := Ideal) .f32 (720#32 : BitVec 32)) (FloatOps.maximumf (FloatOps.sitofp (F := Ideal) .f32 (0#32 : BitVec 32)) (x i))
  rw [Cert.Overlap.hi_720, Cert.Overlap.lo_0]

variable (p : FVec Ideal Cert.KernelIdeal.S32768x2 .f32) (r : FVec Ideal Cert.KernelIdeal.S32768 .f32)

theorem xmin_eq : xminK (F := Ideal) p r = xminR (F := Ideal) p r := by
  unfold xminK xminR; rw [clamp_w]; rfl
theorem ymin_eq : yminK (F := Ideal) p r = yminR (F := Ideal) p r := by
  unfold yminK yminR; rw [clamp_h]; rfl
theorem xmax_eq : xmaxK (F := Ideal) p r = xmaxR (F := Ideal) p r := by
  unfold xmaxK xmaxR; rw [clamp_w]; rfl
theorem ymax_eq : ymaxK (F := Ideal) p r = ymaxR (F := Ideal) p r := by
  unfold ymaxK ymaxR; rw [clamp_h]; rfl

theorem left_eq : leftK = leftR := rfl
theorem top_eq : topK = topR := rfl
theorem right_eq : rightK = rightR := rfl
theorem bottom_eq : bottomK = bottomR := rfl

end Cert.Bridge

end
-- ==== Proof.lean ====
/-
  The certificate: a screen-space mask of which points' bounding boxes touch which 16 × 16 tiles, computed block of
  tiles by block of tiles in a kernel, against the same mask computed whole by the reference.

  Frames: the kernel's programs by their generated frame runs; the reference by its run read back (RefRun). The
  idealization rewrote nothing, so there is nothing to preserve. Equality: the kernel's program ends with the overlap
  mask of the boxes and tile bounds its host lines compute (KernelValue, KernelHost, KernelMask), the reference with
  the overlap mask of its own (RefRun); the boxes agree because the screen bounds, spelt as float constants on one side
  and as converted integers on the other, are the same real numbers, and the tile bounds are the same integer arithmetic
  (Bridge). No finiteness of the inputs is used: the two sides apply the same operations to the same values.
-/
import proofs.«168343_j59493886984836_1_alg».proof.Defs
import proofs.«168343_j59493886984836_1_alg».proof.Proof.Gen.Kernel
import proofs.«168343_j59493886984836_1_alg».proof.Proof.Gen.Kernel.Skeleton
import proofs.«168343_j59493886984836_1_alg».proof.Proof.Gen.Kernel.Launch
import proofs.«168343_j59493886984836_1_alg».proof.Proof.Gen.Kernel.Points
import proofs.«168343_j59493886984836_1_alg».proof.Proof.Gen.Kernel.Frame
import proofs.«168343_j59493886984836_1_alg».proof.Proof.Gen.KernelIdeal
import proofs.«168343_j59493886984836_1_alg».proof.Proof.Gen.KernelIdeal.Skeleton
import proofs.«168343_j59493886984836_1_alg».proof.Proof.Gen.KernelIdeal.Launch
import proofs.«168343_j59493886984836_1_alg».proof.Proof.Gen.KernelIdeal.Points
import proofs.«168343_j59493886984836_1_alg».proof.Proof.Gen.KernelIdeal.Frame
import proofs.«168343_j59493886984836_1_alg».proof.Proof.Gen.ReferenceIdeal
import proofs.«168343_j59493886984836_1_alg».proof.Proof.Gen.Pre_finite_inputs
import proofs.«168343_j59493886984836_1_alg».proof.Proof.KernelMask
import proofs.«168343_j59493886984836_1_alg».proof.Proof.RefRun
import proofs.«168343_j59493886984836_1_alg».proof.Proof.Bridge
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.RefRun.run (F := Ideal) m ρ)

/-- Both programs end with the overlap mask of the same boxes against the same tile bounds. -/
theorem algebraic : Cert.algebraic_KernelIdeal_ReferenceIdeal := by
  intro m ρ m' ρ' _ hagree
  refine ⟨_, Cert.KernelIdeal.KMask.run (F := Ideal) m ρ, ?_⟩
  refine (θ_run Cert.ReferenceIdeal.defs _ _).mono (fun _ h c => ⟨(h c).1.trans ?_, (h c).2⟩)
    (Cert.ReferenceIdeal.RefRun.run (F := Ideal) m' ρ')
  rw [(hagree c).1, (hagree c).2]
  show Cert.Overlap.mask _ _ _ _ _ _ _ _ = Cert.Overlap.mask _ _ _ _ _ _ _ _
  rw [Cert.Bridge.xmin_eq, Cert.Bridge.ymin_eq, Cert.Bridge.xmax_eq, Cert.Bridge.ymax_eq,
    Cert.Bridge.left_eq, Cert.Bridge.top_eq, Cert.Bridge.right_eq, Cert.Bridge.bottom_eq]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
